-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S128x512 : Shape := ⟨2, ![128, 512]⟩
abbrev S64x128 : Shape := ⟨2, ![64, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16384x512 .f32) (main_arg1 : FVec F S128x512 .f32) (main_arg2 : FVec F S64x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S16384x512 : Shape := ⟨2, ![16384, 512]⟩
abbrev S128x512 : Shape := ⟨2, ![128, 512]⟩
abbrev S64x128 : Shape := ⟨2, ![64, 128]⟩
abbrev S4x1x4096 : Shape := ⟨3, ![4, 1, 4096]⟩
abbrev S16384 : Shape := ⟨1, ![16384]⟩
abbrev S2048x512 : Shape := ⟨2, ![2048, 512]⟩
abbrev S1x1x4096 : Shape := ⟨3, ![1, 1, 4096]⟩
abbrev S64 : Shape := ⟨1, ![64]⟩
abbrev S64x1 : Shape := ⟨2, ![64, 1]⟩
abbrev S128x2048 : Shape := ⟨2, ![128, 2048]⟩
abbrev S2048 : Shape := ⟨1, ![2048]⟩
abbrev S1x2048 : Shape := ⟨2, ![1, 2048]⟩
abbrev S64x2048 : Shape := ⟨2, ![64, 2048]⟩
abbrev S1x4096 : Shape := ⟨2, ![1, 4096]⟩

abbrev nBuf : Space → Nat
  | .hbm => 5
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S128x512, .f32⟩
  | .hbm, ⟨2, _⟩ => ⟨S64x128, .f32⟩
  | .hbm, ⟨3, _⟩ => ⟨S4x1x4096, .f32⟩
  | .hbm, ⟨4, _⟩ => ⟨S16384, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S128x512, .f32⟩
  | .local _ .vmem, ⟨5, _⟩ => ⟨S64x128, .f32⟩
  | .local _ .vmem, ⟨6, _⟩ => ⟨S1x1x4096, .f32⟩
  | .local _ .vmem, ⟨7, _⟩ => ⟨S1x1x4096, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x1x4096_S16384 : S4x1x4096.ShapeCasts S16384
  inb_S128x512_S128x512_0_0 : ∀ a, (![0, 0] : Fin 2 → Nat) a + S128x512.size a ≤ S128x512.size a
  h_S128x512 : 0 < S128x512.numel
  inb_S64x128_S64x128_0_0 : ∀ a, (![0, 0] : Fin 2 → Nat) a + S64x128.size a ≤ S64x128.size a
  h_S64x128 : 0 < S64x128.numel
  reduces_S64x128_S64 : S64x128.Reduces [1] S64
  shapeCasts_S64_S64x1 : S64.ShapeCasts S64x1
  inb_S2048x512_S2048x512_0_0 : ∀ a, (![0, 0] : Fin 2 → Nat) a + S2048x512.size a ≤ S2048x512.size a
  h_S2048x512 : 0 < S2048x512.numel
  reduces_S128x2048_S2048 : S128x2048.Reduces [0] S2048
  shapeCasts_S2048_S1x2048 : S2048.ShapeCasts S1x2048
  broadcasts_S64x1_S64x2048 : S64x1.Broadcasts S64x2048
  reduces_S64x2048_S2048 : S64x2048.Reduces [0] S2048
  concatenates_S1x2048_S1x2048_S1x4096_d1 : Shape.Concatenates [S1x2048, S1x2048] S1x4096 1
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  dot_S128x512_S2048x512_S128x2048_1_1_0_0_n_n_wf : DotDims.WF S128x512 S2048x512 S128x2048 [1] [1] [0] [0] [] []
  dot_S64x128_S128x2048_S64x2048_1_0_0_1_n_n_wf : DotDims.WF S64x128 S128x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096.size a ≤ S4x1x4096.size a
  hwx0_4 : ∀ i : grid0.Coords, EltTy.bits .f32 = 32 ∨ (Rect.block (s := S4x1x4096) S1x1x4096.size (cc0_transform_4 i) (hinb0_4 i)).WholeWords (EltTy.packing .f32)

variable [Facts₀]

def dot_S128x512_S2048x512_S128x2048_1_1_0_0_n_n : DotDims S128x512 S2048x512 S128x2048 where
  lhsContracting := [1]
  rhsContracting := [1]
  lhsNonContracting := [0]
  rhsNonContracting := [0]
  lhsBatch := []
  rhsBatch := []
  wf := dot_S128x512_S2048x512_S128x2048_1_1_0_0_n_n_wf
def dot_S64x128_S128x2048_S64x2048_1_0_0_1_n_n : DotDims S64x128 S128x2048 S64x2048 where
  lhsContracting := [1]
  rhsContracting := [0]
  lhsNonContracting := [0]
  rhsNonContracting := [1]
  lhsBatch := []
  rhsBatch := []
  wf := dot_S64x128_S128x2048_S64x2048_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x1x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S128x512 : Shape := ⟨2, ![128, 512]⟩
abbrev S64x128 : Shape := ⟨2, ![64, 128]⟩
abbrev S512x128 : Shape := ⟨2, ![512, 128]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S128x64 : Shape := ⟨2, ![128, 64]⟩

abbrev nBuf : Space → Nat
  | .hbm => 28
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S128x512, .f32⟩
  | .hbm, ⟨2, _⟩ => ⟨S64x128, .f32⟩
  | .hbm, ⟨3, _⟩ => ⟨S512x128, .f32⟩
  | .hbm, ⟨4, _⟩ => ⟨S16384x128, .f32⟩
  | .hbm, ⟨5, _⟩ => ⟨S16384x128, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S64x128, .f32⟩
  | .hbm, ⟨10, _⟩ => ⟨S_, .f32⟩
  | .hbm, ⟨11, _⟩ => ⟨S64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S128x64, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S_, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S_, .f32⟩
  | .hbm, ⟨27, _⟩ => ⟨S16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S128x512_S512x128_1_0 : S128x512.Transposes [1, 0] S512x128
  reducesTo_S16384x128_S16384_d1 : S16384x128.ReducesTo [1] S16384
  h_S_ : 0 < S_.numel
  bcast_S16384_S16384x1_0 : S16384.BroadcastsInDim S16384x1 (![0] : Fin 1 → Fin S16384x1.rank)
  reducesTo_S64x128_S64_d1 : S64x128.ReducesTo [1] S64
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  transposes_S64x128_S128x64_1_0 : S64x128.Transposes [1, 0] S128x64
  bcast_S_S16384x64 : S_.BroadcastsInDim S16384x64 (![] : Fin 0 → Fin S16384x64.rank)
  reducesTo_S16384x64_S16384_d1 : S16384x64.ReducesTo [1] S16384
  dot_S16384x512_S512x128_S16384x128_1_0_0_1_n_n_wf : DotDims.WF S16384x512 S512x128 S16384x128 [1] [0] [0] [1] [] []
  dot_S16384x128_S128x64_S16384x64_1_0_0_1_n_n_wf : DotDims.WF S16384x128 S128x64 S16384x64 [1] [0] [0] [1] [] []

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.WordBody.lean ====
/-
  The fused kernel's body as a triple, at any float instance.

  At a grid point the body is called on five whole staging buffers: two 2048 × 512 row blocks of `x` (the two halves
  of the point's 4096 rows), the 128 × 512 projection matrix, the 64 × 128 centroids, and the 1 × 1 × 4096 output
  block. It loads the four inputs whole, loads the output block once without using the value, and stores ONE value
  over the whole output block: the skeleton's payload of the four loaded inputs. So, holding the five buffers whole
  — the inputs at known contents, the output at anything — it runs to the same five, the inputs unchanged and the
  output at that payload read through the block's one covering rectangle (`outBlk`).
-/
import proofs.«169629_g25297357373548_cont_9to1_2195_10_alg».proof.Proof.Gen.Kernel.Launch
import proofs.«169629_g25297357373548_cont_9to1_2195_10_alg».proof.Proof.Gen.Kernel.Skeleton
import proofs.«169629_g25297357373548_cont_9to1_2195_10_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each the whole buffer -/

abbrev rX : Rect S2048x512 := Rect.unit (s := S2048x512) ![0, 0] S2048x512.size inb_S2048x512_S2048x512_0_0
abbrev rW : Rect S128x512 := Rect.unit (s := S128x512) ![0, 0] S128x512.size inb_S128x512_S128x512_0_0
abbrev rC : Rect S64x128 := Rect.unit (s := S64x128) ![0, 0] S64x128.size inb_S64x128_S64x128_0_0
abbrev rO : Rect S1x1x4096 := Rect.unit (s := S1x1x4096) ![0, 0, 0] S1x1x4096.size inb_S1x1x4096_S1x1x4096_0_0_0

/-- The output block after the body, from the four input blocks: its one store, of the payload of the loaded inputs. -/
def outBlk (xa xb : Vec F S2048x512 .f32) (w : Vec F S128x512 .f32) (cc : Vec F S64x128 .f32) : Vec F S1x1x4096 .f32 :=
  View.canon [⟨rO, k0_pay1 (k0_pay2 (View.ld w rW) (View.ld cc rC) (View.ld xa rX) (View.ld xb rX))⟩]

/-- The one store covers the output block. -/
theorem cover_out (p0 : Vec F S1x1x4096 .f32) (y : S1x1x4096.Idx) :
    ∃ pc ∈ ([⟨rO, p0⟩] : List (View.Piece (Elt F) S1x1x4096 .f32)), y ∈ pc.1.set :=
  View.cover_of_tiled [⟨rO, p0⟩] S1x1x4096.size (by rfl) y

set_option maxHeartbeats 1000000 in
/-- The body on whole staging buffers — the inputs' at contents `xa xb w cc`, the output's at anything — runs to the
    continuation holding the inputs' as they were and the output's at `outBlk` of them. -/
theorem sound_kernel (c : Dev nD) (E : Set ℕ) (i : grid0.Coords)
    (arg1 : Memref sig .tc .vmem S2048x512 .f32) (harg1 : arg1.IsWhole) (arg2 : Memref sig .tc .vmem S2048x512 .f32) (harg2 : arg2.IsWhole)
    (arg3 : Memref sig .tc .vmem S128x512 .f32) (harg3 : arg3.IsWhole) (arg4 : Memref sig .tc .vmem S64x128 .f32) (harg4 : arg4.IsWhole)
    (arg5 : Memref sig .tc .vmem S1x1x4096 .f32) (harg5 : arg5.IsWhole)
    (xa xb : Vec F S2048x512 .f32) (w : Vec F S128x512 .f32) (cc : Vec F S64x128 .f32) (K : PUnit → sProp 𝕄) :
    iprop(owns (c : Thread nD τ) arg1 fullShare xa ∗ owns (c : Thread nD τ) arg2 fullShare xb ∗ owns (c : Thread nD τ) arg3 fullShare w
        ∗ owns (c : Thread nD τ) arg4 fullShare cc ∗ (∃ d, owns (c : Thread nD τ) arg5 fullShare d)
        ∗ (iprop(owns (c : Thread nD τ) arg1 fullShare xa ∗ owns (c : Thread nD τ) arg2 fullShare xb ∗ owns (c : Thread nD τ) arg3 fullShare w
            ∗ owns (c : Thread nD τ) arg4 fullShare cc ∗ owns (c : Thread nD τ) arg5 fullShare (outBlk xa xb w cc)) -∗ K ⟨⟩))
      ⊢ wp frame (wpE (defs₀ (F := F)) Variants.none c none) E (cc0__fused_body i arg1 harg1 arg2 harg2 arg3 harg3 arg4 harg4 arg5 harg5) K := by
  simp only [cc0__fused_body_eq_skeleton]; unfold cc0__fused_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.Kernel.Hand

end
-- ==== Proof.WordData.lean ====
/-
  The proof data of the one pipeline, and the body obligation, at any float instance.

  The grid has four points. At point `t` windows 0 and 1 hold the two 2048-row halves of rows [4096 t, 4096 t + 4096)
  of `x` — both windows stage the SAME array, so the core's hold on `x` is dealt between them, a half share each —,
  windows 2 and 3 hold the whole projection matrix and the whole centroids (fetched once, unmoved afterwards), and
  window 4 is the 1 × 1 × 4096 output block of row `t` of the 4 × 1 × 4096 result, written back at every point.
  The body leaves every input buffer as it found it and the output buffer at `outBlk` of the four input blocks.
  Nothing is kept between points, the core owes nothing, and the invariant is the scoped rest (there is none).
-/
import proofs.«169629_g25297357373548_cont_9to1_2195_10_alg».proof.Proof.WordBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: as launched (the region is @main's first step). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The share of its array each input window holds: the two windows over `x` a half each, the others the whole. -/
def qOf : Fin cfg0.W → PosShare TreeShare
  | ⟨0, _⟩ => fullShare.left
  | ⟨1, _⟩ => fullShare.right
  | ⟨2, _⟩ => fullShare
  | ⟨3, _⟩ => fullShare
  | ⟨4, _⟩ => fullShare

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.scopedRest (Ix := Unit) (Name := ℕ) (U := UR sig nD τ) (Lvl := ℕ) (Val := Elt F) spec0 c
  q := qOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 0 t) (iblk m c 1 t) (iblk m c 2 t) (iblk m c 3 t) := by dsimp only [dats]

/-- Each input's current staging buffer holds its block at every point, fetched there or not: an unfetched window's
    block index has not moved since its last fetch, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.WordRun.lean ====
/-
  The launch: @main is the kernel region and then one host reshape, run as a list of two segments.

  Between segments the core holds its five unscoped buffers whole — the three arguments, the 4 × 1 × 4096 result of
  the region, the flat 16384 result of the reshape — at a memory, and owes nothing. Entering the region, the hold on
  `x` is split in two halves, one for each of the two windows that stage it; the other arrays go to their windows
  whole; the flat result bypasses the region. Leaving it, the two halves of `x` are joined again (an input array is
  never written, so both hold the launch contents), the region's result array holds what the write-backs left
  (`outArr`), and the core again holds its five buffers whole, at the launch memory with the region's result put in
  (`mExit`). The reshape then runs over those buffers, and the final memory is read off them.
-/
import proofs.«169629_g25297357373548_cont_9to1_2195_10_alg».proof.Proof.WordData
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole user algebra. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- The core owes nothing. -/
abbrev R (c : Dev nD) : sProp 𝕄 := iprop(∃ W, owes (c : Thread nD τ) (0 : CellTallies nD τ sig Unit) W)

/-- The region's result array after the last write-back. -/
def outArr (c : Dev nD) : Buf (Elt F) ((c : Thread nD τ).loc main_call0_v0) := (dats m 0 c).arrAt 4 cfg0.N

open Classical in
/-- The memory as the region leaves it, seen from core `c`: the launch memory with the region's result array put in. -/
def mExit (c : Dev nD) : (ℓ : Loc nD τ sig) → Buf (Elt F) ℓ :=
  Function.update m ((c : Thread nD τ).loc main_call0_v0) (outArr m c)

/-- The same as the host operations' valuation. -/
abbrev Vexit (c : Dev nD) : Valuation τ sig (Elt F) := fun b => mExit m c ((c : Dev nD), b)

theorem mExit_out (c : Dev nD) : mExit m c ((c : Thread nD τ).loc main_call0_v0) = outArr m c := by
  unfold mExit; exact Function.update_self _ _ _

theorem mExit_of_ne (c : Dev nD) (b : Ref sig .tc) (hb : b ≠ main_call0_v0) :
    mExit m c ((c : Thread nD τ).loc b) = m ((c : Thread nD τ).loc b) := by
  unfold mExit
  exact Function.update_of_ne (fun e => hb (Proc.devRef_injective _ (Prod.mk.inj e).2)) _ _

/-! ## The unscoped buffers and the windows' arrays, one by one -/

omit [FloatOps F] in
/-- The core's five unscoped buffers, listed. -/
theorem unscopedBufs_list (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_call0_v0) ↦{fullShare} W main_call0_v0)
          ∗ (((c : Thread nD τ).loc main_v0) ↦{fullShare} W main_v0)) := by
  unfold unscopedBufs
  exact bigSep_eq_bigSepL_of_eq [main_arg0, main_arg1, main_arg2, main_call0_v0, main_v0] (by decide) (by decide) _

/-- The windows' arrays at contents `A`, listed: `x` twice at a half share each, the rest whole. -/
theorem arrays_list (c : Dev nD) (A : (w : Fin cfg0.W) → Buf (Elt F) ((cfg0.win w).arr.view.loc (c : Thread nD τ))) :
    ((dats m 0 c).arrays A : sProp 𝕄)
      = iprop((((c : Thread nD τ).loc main_arg0) ↦{fullShare.left} A 0) ∗ (((c : Thread nD τ).loc main_arg0) ↦{fullShare.right} A 1)
          ∗ (((c : Thread nD τ).loc main_arg1) ↦{fullShare} A 2) ∗ (((c : Thread nD τ).loc main_arg2) ↦{fullShare} A 3)
          ∗ (((c : Thread nD τ).loc main_call0_v0) ↦{fullShare} A 4)) := by
  unfold Dat.arrays
  rw [bigSep_W0, (arr_whole0 0).set_eq_univ, (arr_whole0 2).set_eq_univ, (arr_whole0 3).set_eq_univ, (arr_whole0 4).set_eq_univ]
  rfl

/-! ## The segments -/

omit [FloatOps F] in
/-- An unscoped TensorCore reference is one of the device's unscoped buffers. -/
theorem mem_uc (b : Ref sig .tc) (hb : b.isScoped = false) : Proc.devRef (τ := τ) .tc b ∈ Pipeline.ucRefs τ sig :=
  Finset.mem_filter.mpr ⟨StableHlo.devRef_mem_tcRefs b, fun h => Bool.false_ne_true (hb.symm.trans h)⟩

/-- THE HOST SEGMENT after the region: the reshape, over the unscoped buffers as the region leaves them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (Vexit m) R

/-- What the program ends holding: the five buffers as the reshape leaves them. -/
abbrev Tend (c : Dev nD) : sProp 𝕄 :=
  StableHlo.held (c : Thread nD τ) (Pipeline.ucRefs τ sig) (StableHlo.after hostOps1 (Vexit m c))

/-- An input window's array ends as launched, which is also what the exit memory holds there. -/
theorem arr_in_exit (c : Dev nD) (w : Fin cfg0.W) (hw : (cfg0.win w).isOut = false) (hb : Pipeline.arrRef spec0 w ≠ main_call0_v0) :
    (dats m 0 c).arrAt w cfg0.N = mExit m c ((c : Thread nD τ).loc (Pipeline.arrRef spec0 w)) :=
  ((dats m 0 c).arrAt_in w hw _).trans ((A_eq m c w).trans (mExit_of_ne m c _ hb).symm)

set_option backward.isDefEq.respectTransparency.types false in
/-- THE REGION: entered from the five buffers whole, the hold on `x` dealt to its two windows; left with them whole again. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(unscopedBufs c (V m c) ∗ R c)
  post c := iprop(StableHlo.held (c : Thread nD τ) (Pipeline.ucRefs τ sig) (Vexit m c) ∗ R c)
  X c := iprop(emp)
  Y c := iprop(emp)
  Z c := ((c : Thread nD τ).loc main_v0) ↦{fullShare} V m c main_v0
  hentry c := by
    rw [unscopedBufs_list, arrays_list]
    iintro ⟨⟨⟨H0, H1, H2, H3, H4⟩, HO⟩, -, -⟩
    ihave Hs := (pointsTo_share (PosShare.mem_left_op_right fullShare)).1 $$ H0
    icases Hs with ⟨H0l, H0r⟩
    imodintro
    isplitl [H0l H0r H1 H2 H3]
    · isplitl [H0l]; · iexact H0l
      isplitl [H0r]; · iexact H0r
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact H4
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays_list, ← Pipeline.unscopedBufs_held, unscopedBufs_list,
      arr_in_exit m c 0 rfl (by decide), arr_in_exit m c 1 rfl (by decide), arr_in_exit m c 2 rfl (by decide), arr_in_exit m c 3 rfl (by decide)]
    iintro ⟨⟨H0l, H0r, H1, H2, H3⟩, HO, -, H4⟩
    imodintro
    isplitr [HO]
    · isplitl [H0l H0r]
      · iapply (pointsTo_share (PosShare.mem_left_op_right fullShare)).2
        isplitl [H0l]; · iexact H0l
        iexact H0r
      isplitl [H1]; · iexact H1
      isplitl [H2]; · iexact H2
      isplitl [H3]
      · rw [show Vexit m c (Proc.devRef .tc main_call0_v0) = (dats m 0 c).arrAt 4 cfg0.N from mExit_out m c]; iexact H3
      rw [show Vexit m c (Proc.devRef .tc main_v0) = V m c main_v0 from mExit_of_ne m c main_v0 (by decide)]; iexact H4
    · unfold Pipeline.Dat.owesAt Pipeline.owesWithin
      icases HO with ⟨%W, -, HO⟩; iexists W; iexact HO

/-- @main as the list of the two. -/
abbrev segs : List (Pipeline.Seg (pcfgs (F := F)) adm (dats m) () defs₀ 𝒱₀ L lv) := [.region (reg0 m), .host (seg1 m)]

/-- The flat result the reshape leaves. -/
def resArr (c : Dev nD) : Buf (Elt F) ((c : Thread nD τ).loc main_v0) := StableHlo.after hostOps1 (Vexit m c) (Proc.devRef .tc main_v0)

/-- The reshape writes only its result: an argument ends as the exit memory holds it, which is as launched. -/
theorem after_arg (c : Dev nD) (b : Ref sig .tc) (hb : b ≠ main_v0) (hb' : b ≠ main_call0_v0) :
    StableHlo.after hostOps1 (Vexit m c) (Proc.devRef .tc b) = m ((c : Thread nD τ).loc b) :=
  (StableHlo.after_of_forall_not_mem (b := Proc.devRef .tc b) hostOps1 (Vexit m c) (by
    intro op hop
    simp only [List.mem_cons, List.mem_nil_iff, or_false] at hop
    subst hop
    simp only [StableHlo.TRef.reshape, StableHlo.reshape_writes, Finset.mem_singleton]
    exact StableHlo.devRef_ne_of_ne hb)).trans (mExit_of_ne m c b hb')

/-- The physical post: the flat result at `resArr`, the three arguments as launched. -/
def QF : PUnit × MemSt nD τ sig (Elt F) → Prop := fun r => ∀ c : Dev nD,
  r.2.mem ((c.tc : Thread nD τ).loc main_v0) = resArr m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

set_option backward.isDefEq.respectTransparency.types false in
/-- At the compiled mesh, for any float values, from any memory with zero counters: every weakly fair execution of
    @main on the TensorCores terminates, the flat result at `resArr` and the arguments unchanged. -/
theorem run_main : θ_run defs (onTc (τ := τ) (main (F := F))) (s₀ m ρ) (QF m) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ R c)) (Tₙ := Tend m)
    (hch := ⟨fun _ => .rfl, fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => s.mem ((c.tc : Thread nD τ).loc main_v0) = resArr m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      dsimp only [Tend]; unfold StableHlo.held
      iintro ⟨Hh, HSI⟩
      ihave Hr := (pointsTo_read_all (Pipeline.ucRefs τ sig) (fun b => (((c : Thread nD τ).1, b) : Loc nD τ sig)) (StableHlo.after hostOps1 (Vexit m c)) s') $$ [Hh HSI]
      · isplitl [Hh] <;> iassumption
      icases Hr with ⟨%ha, HSI⟩
      imodintro
      isplitr
      · ipureintro
        exact ⟨ha _ (mem_uc main_v0 rfl), (ha _ (mem_uc main_arg0 rfl)).trans (after_arg m c main_arg0 (by decide) (by decide)),
          (ha _ (mem_uc main_arg1 rfl)).trans (after_arg m c main_arg1 (by decide) (by decide)),
          (ha _ (mem_uc main_arg2 rfl)).trans (after_arg m c main_arg2 (by decide) (by decide))⟩
      iexact HSI)
    (hQ := fun _ h => h)

/-- info: 'Cert.Kernel.Hand.run_main' depends on axioms: [propext, Classical.choice, Quot.sound] -/
#guard_msgs in #print axioms run_main

end Cert.Kernel.Hand

end
-- ==== Proof.IdealBody.lean ====
/-
  The fused kernel's body as a triple, at any float instance.

  At a grid point the body is called on five whole staging buffers: two 2048 × 512 row blocks of `x` (the two halves
  of the point's 4096 rows), the 128 × 512 projection matrix, the 64 × 128 centroids, and the 1 × 1 × 4096 output
  block. It loads the four inputs whole, loads the output block once without using the value, and stores ONE value
  over the whole output block: the skeleton's payload of the four loaded inputs. So, holding the five buffers whole
  — the inputs at known contents, the output at anything — it runs to the same five, the inputs unchanged and the
  output at that payload read through the block's one covering rectangle (`outBlk`).
-/
import proofs.«169629_g25297357373548_cont_9to1_2195_10_alg».proof.Proof.Gen.KernelIdeal.Launch
import proofs.«169629_g25297357373548_cont_9to1_2195_10_alg».proof.Proof.Gen.KernelIdeal.Skeleton
import proofs.«169629_g25297357373548_cont_9to1_2195_10_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each the whole buffer -/

abbrev rX : Rect S2048x512 := Rect.unit (s := S2048x512) ![0, 0] S2048x512.size inb_S2048x512_S2048x512_0_0
abbrev rW : Rect S128x512 := Rect.unit (s := S128x512) ![0, 0] S128x512.size inb_S128x512_S128x512_0_0
abbrev rC : Rect S64x128 := Rect.unit (s := S64x128) ![0, 0] S64x128.size inb_S64x128_S64x128_0_0
abbrev rO : Rect S1x1x4096 := Rect.unit (s := S1x1x4096) ![0, 0, 0] S1x1x4096.size inb_S1x1x4096_S1x1x4096_0_0_0

/-- The output block after the body, from the four input blocks: its one store, of the payload of the loaded inputs. -/
def outBlk (xa xb : Vec F S2048x512 .f32) (w : Vec F S128x512 .f32) (cc : Vec F S64x128 .f32) : Vec F S1x1x4096 .f32 :=
  View.canon [⟨rO, k0_pay1 (k0_pay2 (View.ld w rW) (View.ld cc rC) (View.ld xa rX) (View.ld xb rX))⟩]

/-- The one store covers the output block. -/
theorem cover_out (p0 : Vec F S1x1x4096 .f32) (y : S1x1x4096.Idx) :
    ∃ pc ∈ ([⟨rO, p0⟩] : List (View.Piece (Elt F) S1x1x4096 .f32)), y ∈ pc.1.set :=
  View.cover_of_tiled [⟨rO, p0⟩] S1x1x4096.size (by rfl) y

set_option maxHeartbeats 1000000 in
/-- The body on whole staging buffers — the inputs' at contents `xa xb w cc`, the output's at anything — runs to the
    continuation holding the inputs' as they were and the output's at `outBlk` of them. -/
theorem sound_kernel (c : Dev nD) (E : Set ℕ) (i : grid0.Coords)
    (arg1 : Memref sig .tc .vmem S2048x512 .f32) (harg1 : arg1.IsWhole) (arg2 : Memref sig .tc .vmem S2048x512 .f32) (harg2 : arg2.IsWhole)
    (arg3 : Memref sig .tc .vmem S128x512 .f32) (harg3 : arg3.IsWhole) (arg4 : Memref sig .tc .vmem S64x128 .f32) (harg4 : arg4.IsWhole)
    (arg5 : Memref sig .tc .vmem S1x1x4096 .f32) (harg5 : arg5.IsWhole)
    (xa xb : Vec F S2048x512 .f32) (w : Vec F S128x512 .f32) (cc : Vec F S64x128 .f32) (K : PUnit → sProp 𝕄) :
    iprop(owns (c : Thread nD τ) arg1 fullShare xa ∗ owns (c : Thread nD τ) arg2 fullShare xb ∗ owns (c : Thread nD τ) arg3 fullShare w
        ∗ owns (c : Thread nD τ) arg4 fullShare cc ∗ (∃ d, owns (c : Thread nD τ) arg5 fullShare d)
        ∗ (iprop(owns (c : Thread nD τ) arg1 fullShare xa ∗ owns (c : Thread nD τ) arg2 fullShare xb ∗ owns (c : Thread nD τ) arg3 fullShare w
            ∗ owns (c : Thread nD τ) arg4 fullShare cc ∗ owns (c : Thread nD τ) arg5 fullShare (outBlk xa xb w cc)) -∗ K ⟨⟩))
      ⊢ wp frame (wpE (defs₀ (F := F)) Variants.none c none) E (cc0__fused_body i arg1 harg1 arg2 harg2 arg3 harg3 arg4 harg4 arg5 harg5) K := by
  simp only [cc0__fused_body_eq_skeleton]; unfold cc0__fused_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Hand

end
-- ==== Proof.IdealData.lean ====
/-
  The proof data of the one pipeline, and the body obligation, at any float instance.

  The grid has four points. At point `t` windows 0 and 1 hold the two 2048-row halves of rows [4096 t, 4096 t + 4096)
  of `x` — both windows stage the SAME array, so the core's hold on `x` is dealt between them, a half share each —,
  windows 2 and 3 hold the whole projection matrix and the whole centroids (fetched once, unmoved afterwards), and
  window 4 is the 1 × 1 × 4096 output block of row `t` of the 4 × 1 × 4096 result, written back at every point.
  The body leaves every input buffer as it found it and the output buffer at `outBlk` of the four input blocks.
  Nothing is kept between points, the core owes nothing, and the invariant is the scoped rest (there is none).
-/
import proofs.«169629_g25297357373548_cont_9to1_2195_10_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: as launched (the region is @main's first step). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The share of its array each input window holds: the two windows over `x` a half each, the others the whole. -/
def qOf : Fin cfg0.W → PosShare TreeShare
  | ⟨0, _⟩ => fullShare.left
  | ⟨1, _⟩ => fullShare.right
  | ⟨2, _⟩ => fullShare
  | ⟨3, _⟩ => fullShare
  | ⟨4, _⟩ => fullShare

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.scopedRest (Ix := Unit) (Name := ℕ) (U := UR sig nD τ) (Lvl := ℕ) (Val := Elt F) spec0 c
  q := qOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 0 t) (iblk m c 1 t) (iblk m c 2 t) (iblk m c 3 t) := by dsimp only [dats]

/-- Each input's current staging buffer holds its block at every point, fetched there or not: an unfetched window's
    block index has not moved since its last fetch, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealRun.lean ====
/-
  The launch: @main is the kernel region and then one host reshape, run as a list of two segments.

  Between segments the core holds its five unscoped buffers whole — the three arguments, the 4 × 1 × 4096 result of
  the region, the flat 16384 result of the reshape — at a memory, and owes nothing. Entering the region, the hold on
  `x` is split in two halves, one for each of the two windows that stage it; the other arrays go to their windows
  whole; the flat result bypasses the region. Leaving it, the two halves of `x` are joined again (an input array is
  never written, so both hold the launch contents), the region's result array holds what the write-backs left
  (`outArr`), and the core again holds its five buffers whole, at the launch memory with the region's result put in
  (`mExit`). The reshape then runs over those buffers, and the final memory is read off them.
-/
import proofs.«169629_g25297357373548_cont_9to1_2195_10_alg».proof.Proof.IdealData
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole user algebra. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- The core owes nothing. -/
abbrev R (c : Dev nD) : sProp 𝕄 := iprop(∃ W, owes (c : Thread nD τ) (0 : CellTallies nD τ sig Unit) W)

/-- The region's result array after the last write-back. -/
def outArr (c : Dev nD) : Buf (Elt F) ((c : Thread nD τ).loc main_call0_v0) := (dats m 0 c).arrAt 4 cfg0.N

open Classical in
/-- The memory as the region leaves it, seen from core `c`: the launch memory with the region's result array put in. -/
def mExit (c : Dev nD) : (ℓ : Loc nD τ sig) → Buf (Elt F) ℓ :=
  Function.update m ((c : Thread nD τ).loc main_call0_v0) (outArr m c)

/-- The same as the host operations' valuation. -/
abbrev Vexit (c : Dev nD) : Valuation τ sig (Elt F) := fun b => mExit m c ((c : Dev nD), b)

theorem mExit_out (c : Dev nD) : mExit m c ((c : Thread nD τ).loc main_call0_v0) = outArr m c := by
  unfold mExit; exact Function.update_self _ _ _

theorem mExit_of_ne (c : Dev nD) (b : Ref sig .tc) (hb : b ≠ main_call0_v0) :
    mExit m c ((c : Thread nD τ).loc b) = m ((c : Thread nD τ).loc b) := by
  unfold mExit
  exact Function.update_of_ne (fun e => hb (Proc.devRef_injective _ (Prod.mk.inj e).2)) _ _

/-! ## The unscoped buffers and the windows' arrays, one by one -/

omit [FloatOps F] in
/-- The core's five unscoped buffers, listed. -/
theorem unscopedBufs_list (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_call0_v0) ↦{fullShare} W main_call0_v0)
          ∗ (((c : Thread nD τ).loc main_v0) ↦{fullShare} W main_v0)) := by
  unfold unscopedBufs
  exact bigSep_eq_bigSepL_of_eq [main_arg0, main_arg1, main_arg2, main_call0_v0, main_v0] (by decide) (by decide) _

/-- The windows' arrays at contents `A`, listed: `x` twice at a half share each, the rest whole. -/
theorem arrays_list (c : Dev nD) (A : (w : Fin cfg0.W) → Buf (Elt F) ((cfg0.win w).arr.view.loc (c : Thread nD τ))) :
    ((dats m 0 c).arrays A : sProp 𝕄)
      = iprop((((c : Thread nD τ).loc main_arg0) ↦{fullShare.left} A 0) ∗ (((c : Thread nD τ).loc main_arg0) ↦{fullShare.right} A 1)
          ∗ (((c : Thread nD τ).loc main_arg1) ↦{fullShare} A 2) ∗ (((c : Thread nD τ).loc main_arg2) ↦{fullShare} A 3)
          ∗ (((c : Thread nD τ).loc main_call0_v0) ↦{fullShare} A 4)) := by
  unfold Dat.arrays
  rw [bigSep_W0, (arr_whole0 0).set_eq_univ, (arr_whole0 2).set_eq_univ, (arr_whole0 3).set_eq_univ, (arr_whole0 4).set_eq_univ]
  rfl

/-! ## The segments -/

omit [FloatOps F] in
/-- An unscoped TensorCore reference is one of the device's unscoped buffers. -/
theorem mem_uc (b : Ref sig .tc) (hb : b.isScoped = false) : Proc.devRef (τ := τ) .tc b ∈ Pipeline.ucRefs τ sig :=
  Finset.mem_filter.mpr ⟨StableHlo.devRef_mem_tcRefs b, fun h => Bool.false_ne_true (hb.symm.trans h)⟩

/-- THE HOST SEGMENT after the region: the reshape, over the unscoped buffers as the region leaves them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (Vexit m) R

/-- What the program ends holding: the five buffers as the reshape leaves them. -/
abbrev Tend (c : Dev nD) : sProp 𝕄 :=
  StableHlo.held (c : Thread nD τ) (Pipeline.ucRefs τ sig) (StableHlo.after hostOps1 (Vexit m c))

/-- An input window's array ends as launched, which is also what the exit memory holds there. -/
theorem arr_in_exit (c : Dev nD) (w : Fin cfg0.W) (hw : (cfg0.win w).isOut = false) (hb : Pipeline.arrRef spec0 w ≠ main_call0_v0) :
    (dats m 0 c).arrAt w cfg0.N = mExit m c ((c : Thread nD τ).loc (Pipeline.arrRef spec0 w)) :=
  ((dats m 0 c).arrAt_in w hw _).trans ((A_eq m c w).trans (mExit_of_ne m c _ hb).symm)

set_option backward.isDefEq.respectTransparency.types false in
/-- THE REGION: entered from the five buffers whole, the hold on `x` dealt to its two windows; left with them whole again. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(unscopedBufs c (V m c) ∗ R c)
  post c := iprop(StableHlo.held (c : Thread nD τ) (Pipeline.ucRefs τ sig) (Vexit m c) ∗ R c)
  X c := iprop(emp)
  Y c := iprop(emp)
  Z c := ((c : Thread nD τ).loc main_v0) ↦{fullShare} V m c main_v0
  hentry c := by
    rw [unscopedBufs_list, arrays_list]
    iintro ⟨⟨⟨H0, H1, H2, H3, H4⟩, HO⟩, -, -⟩
    ihave Hs := (pointsTo_share (PosShare.mem_left_op_right fullShare)).1 $$ H0
    icases Hs with ⟨H0l, H0r⟩
    imodintro
    isplitl [H0l H0r H1 H2 H3]
    · isplitl [H0l]; · iexact H0l
      isplitl [H0r]; · iexact H0r
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact H4
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays_list, ← Pipeline.unscopedBufs_held, unscopedBufs_list,
      arr_in_exit m c 0 rfl (by decide), arr_in_exit m c 1 rfl (by decide), arr_in_exit m c 2 rfl (by decide), arr_in_exit m c 3 rfl (by decide)]
    iintro ⟨⟨H0l, H0r, H1, H2, H3⟩, HO, -, H4⟩
    imodintro
    isplitr [HO]
    · isplitl [H0l H0r]
      · iapply (pointsTo_share (PosShare.mem_left_op_right fullShare)).2
        isplitl [H0l]; · iexact H0l
        iexact H0r
      isplitl [H1]; · iexact H1
      isplitl [H2]; · iexact H2
      isplitl [H3]
      · rw [show Vexit m c (Proc.devRef .tc main_call0_v0) = (dats m 0 c).arrAt 4 cfg0.N from mExit_out m c]; iexact H3
      rw [show Vexit m c (Proc.devRef .tc main_v0) = V m c main_v0 from mExit_of_ne m c main_v0 (by decide)]; iexact H4
    · unfold Pipeline.Dat.owesAt Pipeline.owesWithin
      icases HO with ⟨%W, -, HO⟩; iexists W; iexact HO

/-- @main as the list of the two. -/
abbrev segs : List (Pipeline.Seg (pcfgs (F := F)) adm (dats m) () defs₀ 𝒱₀ L lv) := [.region (reg0 m), .host (seg1 m)]

/-- The flat result the reshape leaves. -/
def resArr (c : Dev nD) : Buf (Elt F) ((c : Thread nD τ).loc main_v0) := StableHlo.after hostOps1 (Vexit m c) (Proc.devRef .tc main_v0)

/-- The reshape writes only its result: an argument ends as the exit memory holds it, which is as launched. -/
theorem after_arg (c : Dev nD) (b : Ref sig .tc) (hb : b ≠ main_v0) (hb' : b ≠ main_call0_v0) :
    StableHlo.after hostOps1 (Vexit m c) (Proc.devRef .tc b) = m ((c : Thread nD τ).loc b) :=
  (StableHlo.after_of_forall_not_mem (b := Proc.devRef .tc b) hostOps1 (Vexit m c) (by
    intro op hop
    simp only [List.mem_cons, List.mem_nil_iff, or_false] at hop
    subst hop
    simp only [StableHlo.TRef.reshape, StableHlo.reshape_writes, Finset.mem_singleton]
    exact StableHlo.devRef_ne_of_ne hb)).trans (mExit_of_ne m c b hb')

/-- The physical post: the flat result at `resArr`, the three arguments as launched. -/
def QF : PUnit × MemSt nD τ sig (Elt F) → Prop := fun r => ∀ c : Dev nD,
  r.2.mem ((c.tc : Thread nD τ).loc main_v0) = resArr m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

set_option backward.isDefEq.respectTransparency.types false in
/-- At the compiled mesh, for any float values, from any memory with zero counters: every weakly fair execution of
    @main on the TensorCores terminates, the flat result at `resArr` and the arguments unchanged. -/
theorem run_main : θ_run defs (onTc (τ := τ) (main (F := F))) (s₀ m ρ) (QF m) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ R c)) (Tₙ := Tend m)
    (hch := ⟨fun _ => .rfl, fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => s.mem ((c.tc : Thread nD τ).loc main_v0) = resArr m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      dsimp only [Tend]; unfold StableHlo.held
      iintro ⟨Hh, HSI⟩
      ihave Hr := (pointsTo_read_all (Pipeline.ucRefs τ sig) (fun b => (((c : Thread nD τ).1, b) : Loc nD τ sig)) (StableHlo.after hostOps1 (Vexit m c)) s') $$ [Hh HSI]
      · isplitl [Hh] <;> iassumption
      icases Hr with ⟨%ha, HSI⟩
      imodintro
      isplitr
      · ipureintro
        exact ⟨ha _ (mem_uc main_v0 rfl), (ha _ (mem_uc main_arg0 rfl)).trans (after_arg m c main_arg0 (by decide) (by decide)),
          (ha _ (mem_uc main_arg1 rfl)).trans (after_arg m c main_arg1 (by decide) (by decide)),
          (ha _ (mem_uc main_arg2 rfl)).trans (after_arg m c main_arg2 (by decide) (by decide))⟩
      iexact HSI)
    (hQ := fun _ h => h)

/-- info: 'Cert.KernelIdeal.Hand.run_main' depends on axioms: [propext, Classical.choice, Quot.sound] -/
#guard_msgs in #print axioms run_main

end Cert.KernelIdeal.Hand

end
-- ==== Proof.Spec.lean ====
/-
  The mathematics of the certificate, over the extended reals and free of either program.

  A row `r` of `X` (16384 × 512) is projected by `W` (128 × 512) to `enc r e = ∑ k, W e k · X r k`; its squared distance
  to the centroid `C q` (64 × 128) expands to `‖enc r‖² + ‖C q‖² − 2 · ⟨C q, enc r⟩`; the result at `r` is the distance
  to the nearest centroid, `min_q √(max (d² r q) 0)`.

  Two spellings of it are stated, each in the order of operations of one of the two programs, so that each program's
  term is its spelling by rewriting alone: `nearestK` takes the minimum over `q` of `‖C q‖² − 2 · ⟨C q, enc r⟩` first,
  adds `‖enc r‖²` once and takes the clamp and the root of that single number; `nearestR` forms every clamped root and
  takes their minimum. They agree because `t ↦ t + b` and `t ↦ √(max t 0)` are monotone on the extended reals, and a
  monotone map commutes with the minimum of a finite nonempty family (`Law.lean`).
-/
import Idealize.ShloMosaic.PureOps.Ideal
import Idealize.ShloMosaic.PureOps.Ideal.Laws

noncomputable section

namespace Cert.Spec

open Idealize.ShloMosaic

/-- The factor two of the cross term, as the f32 word both programs write. -/
abbrev two : EReal := Ideal.ofBits .f32 0x40000000#32
/-- The minimum's starting value, the f32 word of +∞ both programs write. -/
abbrev pinf : EReal := Ideal.ofBits .f32 0x7F800000#32

variable (X : Fin 16384 → Fin 512 → EReal) (W : Fin 128 → Fin 512 → EReal) (C : Fin 64 → Fin 128 → EReal)

/-! ## In the order of the fused program: projection as `W · Xᵀ`, the minimum before the row norm is added -/

/-- Coordinate `e` of the projection of row `r`, the matrix product written `W` first. -/
def encK (r : Fin 16384) (e : Fin 128) : EReal := ∑ k : Fin 512, W e k * X r k

/-- The squared norm of centroid `q`. -/
def cnormK (q : Fin 64) : EReal := ∑ e : Fin 128, C q e * C q e

/-- The squared norm of the projected row `r`. -/
def xnormK (r : Fin 16384) : EReal := ∑ e : Fin 128, encK X W r e * encK X W r e

/-- The inner product of centroid `q` with the projected row `r`, the centroid first. -/
def crossK (q : Fin 64) (r : Fin 16384) : EReal := ∑ e : Fin 128, C q e * encK X W r e

/-- The distance from row `r` to its nearest centroid: the smallest `‖C q‖² − 2⟨C q, enc r⟩`, then `+ ‖enc r‖²`, clamped
    at zero, then the root. -/
def nearestK (r : Fin 16384) : EReal :=
  Ideal.sqrt (max ((Finset.univ : Finset (Fin 64)).fold min pinf (fun q => cnormK C q - two * crossK X W C q r) + xnormK X W r) 0)

/-! ## In the order of the plain program: projection as `X · Wᵀ`, every distance formed, then the minimum -/

/-- Coordinate `e` of the projection of row `r`, the matrix product written `X` first. -/
def encR (r : Fin 16384) (e : Fin 128) : EReal := ∑ k : Fin 512, X r k * W e k

/-- The squared norm of the projected row `r`, summed from zero. -/
def xnormR (r : Fin 16384) : EReal := 0 + ∑ e : Fin 128, encR X W r e * encR X W r e

/-- The squared norm of centroid `q`, summed from zero. -/
def cnormR (q : Fin 64) : EReal := 0 + ∑ e : Fin 128, C q e * C q e

/-- The inner product of the projected row `r` with centroid `q`, the row first. -/
def crossR (r : Fin 16384) (q : Fin 64) : EReal := ∑ e : Fin 128, encR X W r e * C q e

/-- The distance from row `r` to its nearest centroid: the smallest clamped root of the expanded squared distance. -/
def nearestR (r : Fin 16384) : EReal :=
  (Finset.univ : Finset (Fin 64)).fold min pinf
    (fun q => Ideal.sqrt (max ((xnormR X W r + cnormR C q) - two * crossR X W C r q) 0))

end Cert.Spec

end
-- ==== Proof.KernelPayload.lean ====
/-
  What the fused program's body stores, read at one lane, is the specification's `nearestK`.

  The body holds `W` (128 × 512), `C` (64 × 128) and two blocks of 2048 rows of `X`. On each block it forms the projection
  `enc = W · blockᵀ` (128 × 2048), the squared norms `‖enc p‖²` of its columns, the products `⟨C q, enc p⟩`, the array
  `‖C q‖² − 2 · ⟨C q, enc p⟩`, its minimum over `q`, adds `‖enc p‖²`, clamps at zero and takes the root: one row of 2048
  numbers. The two rows are laid end to end into 4096 lanes and given two leading unit axes.

  Read at lane `j`: the unit axes drop away; the lane falls in the first row (`j < 2048`, at `j`) or in the second (at
  `j − 2048`); and in either row the value at `p` unfolds, operation by operation, into sums over coordinates — a sum
  along an axis is the sum over that axis's coordinates, a product contracting one axis is the sum over that axis's
  coordinate of the operands' products, a minimum along an axis is the fold of `min` from `+∞` over its coordinates — which
  are `nearestK`'s own sums once the block's row `p` is row `r` of `X`.
-/
import proofs.«169629_g25297357373548_cont_9to1_2195_10_alg».proof.Proof.Gen.KernelIdeal.Skeleton
import proofs.«169629_g25297357373548_cont_9to1_2195_10_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelPayload

open Cert.KernelIdeal Cert.KernelIdeal.Gen Idealize.ShloMosaic Idealize.ShloMosaic.ValueIdx

/-! ## Two layout readings at coordinates -/

/-- A vector of length `a` viewed as an `a × 1` column reads, at `(i, u)`, the vector at `i`: both positions in
    row-major order are `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated over `b` columns reads, at `(i, p)`, the column at `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (p : Fin b) :
    broadcastTo ⟨2, ![a, b]⟩ v h (ix2 i p) = v (ix2 i (0 : Fin 1)) := by
  refine broadcastTo_apply v h (ix2 i p) (ix2 i (0 : Fin 1)) fun ax => ?_
  match ax with
  | ⟨0, _⟩ =>
    show i.val = if a = 1 then 0 else i.val
    split
    · have := i.isLt; omega
    · rfl
  | ⟨1, _⟩ => rfl

/-! ## The reductions at coordinates -/

/-- The sum along the rows of a `64 × 128` array, at `q`: the sum over the 128 columns of row `q`. -/
theorem rowSum_apply (v : FVec Ideal S64x128 .f32) (q : Fin 64) :
    multiReduction (F := Ideal) .add [1] S64 v 0x00000000#32 reduces_S64x128_S64 (.inl rfl) rfl (ix1 q)
      = ∑ e : Fin 128, v (ix2 q e) := by
  refine (Ideal.multiReduction_add_single v _ reduces_S64x128_S64 _ _ (ix1 q)).trans ?_
  refine Finset.sum_congr rfl fun e _ => ?_
  exact congrArg v (funext fun a => Fin.ext (by match a with | ⟨0, _⟩ => rfl | ⟨1, _⟩ => rfl))

/-- The sum down the columns of a `128 × 2048` array, at `p`: the sum over the 128 rows of column `p`. -/
theorem colSum_apply (v : FVec Ideal S128x2048 .f32) (p : Fin 2048) :
    multiReduction (F := Ideal) .add [0] S2048 v 0x00000000#32 reduces_S128x2048_S2048 (.inl rfl) rfl (ix1 p)
      = ∑ e : Fin 128, v (ix2 e p) := by
  refine (Ideal.multiReduction_add_single v _ reduces_S128x2048_S2048 _ _ (ix1 p)).trans ?_
  refine Finset.sum_congr rfl fun e _ => ?_
  exact congrArg v (funext fun a => Fin.ext (by match a with | ⟨0, _⟩ => rfl | ⟨1, _⟩ => rfl))

/-- The minimum down the columns of a `64 × 2048` array, at `p`: the fold of `min`, from the value of the word of
    `+∞`, over the 64 rows of column `p` (the minimum commutes and associates, so the order of the fold is free). -/
theorem colMin_apply (v : FVec Ideal S64x2048 .f32) (p : Fin 2048) :
    multiReduction (F := Ideal) .minimumf [0] S2048 v 0x7F800000#32 reduces_S64x2048_S2048 (.inl rfl) rfl (ix1 p)
      = (Finset.univ : Finset (Fin 64)).fold min Cert.Spec.pinf (fun q => v (ix2 q p)) := by
  refine (multiReduction_minimumf_eq_fold v _ reduces_S64x2048_S2048 _ _ (ix1 p)).trans ?_
  refine (reduces_S64x2048_S2048.fold_filter_drop_single _ _ v (ix1 p)).trans ?_
  refine congrArg (Finset.fold min Cert.Spec.pinf · (Finset.univ : Finset (Fin 64))) ?_
  funext q
  exact congrArg v (funext fun a => Fin.ext (by match a with | ⟨0, _⟩ => rfl | ⟨1, _⟩ => rfl))

/-! ## The two matrix products at coordinates

Each product contracts ONE axis, so its contraction index is one coordinate `k`; the operand indices at output index
`(a, b)` and contraction coordinate `k` are read axis by axis from the product's dimension numbers, and the sum over the
contraction index is re-indexed through that one coordinate. -/

/-- First product, left operand, axis 0: the output's row. -/
theorem lhs_proj_0 (i : S128x2048.Idx) (q : dot_S128x512_S2048x512_S128x2048_1_1_0_0_n_n.contr.Idx) :
    (dot_S128x512_S2048x512_S128x2048_1_1_0_0_n_n.lhsIdx i q 0).val = (i 0).val := by
  unfold DotDims.lhsIdx
  rw [dif_neg (show ¬(0 : Fin S128x512.rank) ∈ dot_S128x512_S2048x512_S128x2048_1_1_0_0_n_n.lhsBatch by decide), dif_pos (show (0 : Fin S128x512.rank) ∈ dot_S128x512_S2048x512_S128x2048_1_1_0_0_n_n.lhsNonContracting by decide)]
  rfl
/-- First product, left operand, axis 1: the contraction coordinate. -/
theorem lhs_proj_1 (i : S128x2048.Idx) (q : dot_S128x512_S2048x512_S128x2048_1_1_0_0_n_n.contr.Idx) :
    (dot_S128x512_S2048x512_S128x2048_1_1_0_0_n_n.lhsIdx i q 1).val = (q ⟨0, by decide⟩).val :=
  dot_S128x512_S2048x512_S128x2048_1_1_0_0_n_n.lhsIdx_val_of_single rfl i q
/-- First product, right operand, axis 0: the output's column. -/
theorem rhs_proj_0 (i : S128x2048.Idx) (q : dot_S128x512_S2048x512_S128x2048_1_1_0_0_n_n.contr.Idx) :
    (dot_S128x512_S2048x512_S128x2048_1_1_0_0_n_n.rhsIdx i q 0).val = (i 1).val := by
  unfold DotDims.rhsIdx
  rw [dif_neg (show ¬(0 : Fin S2048x512.rank) ∈ dot_S128x512_S2048x512_S128x2048_1_1_0_0_n_n.rhsBatch by decide), dif_pos (show (0 : Fin S2048x512.rank) ∈ dot_S128x512_S2048x512_S128x2048_1_1_0_0_n_n.rhsNonContracting by decide)]
  rfl
/-- First product, right operand, axis 1: the contraction coordinate. -/
theorem rhs_proj_1 (i : S128x2048.Idx) (q : dot_S128x512_S2048x512_S128x2048_1_1_0_0_n_n.contr.Idx) :
    (dot_S128x512_S2048x512_S128x2048_1_1_0_0_n_n.rhsIdx i q 1).val = (q ⟨0, by decide⟩).val :=
  dot_S128x512_S2048x512_S128x2048_1_1_0_0_n_n.rhsIdx_val_of_single rfl i q

/-- THE FIRST PRODUCT at `(e, p)`: `∑ k, w (e, k) · x (p, k)` — the second operand enters transposed. -/
theorem proj_apply (w : FVec Ideal S128x512 .f32) (x : FVec Ideal S2048x512 .f32) (e : Fin 128) (p : Fin 2048) :
    matmul dot_S128x512_S2048x512_S128x2048_1_1_0_0_n_n none w x (constant (F := Ideal) S128x2048 .f32 0x00000000#32) (ix2 e p)
      = ∑ k : Fin 512, w (ix2 e k) * x (ix2 p k) := by
  refine (Ideal.matmul_constant_zero_apply dot_S128x512_S2048x512_S128x2048_1_1_0_0_n_n none w x (ix2 e p)).trans ?_
  rw [← Equiv.sum_comp (contrEquiv1 dot_S128x512_S2048x512_S128x2048_1_1_0_0_n_n 512 rfl rfl).symm]
  refine Finset.sum_congr rfl fun k _ => ?_
  have hk := contrEquiv1_symm_val dot_S128x512_S2048x512_S128x2048_1_1_0_0_n_n 512 rfl rfl k
  have el : dot_S128x512_S2048x512_S128x2048_1_1_0_0_n_n.lhsIdx (ix2 e p) ((contrEquiv1 dot_S128x512_S2048x512_S128x2048_1_1_0_0_n_n 512 rfl rfl).symm k) = ix2 e k := funext fun a => Fin.ext (by
    match a with
    | ⟨0, _⟩ => exact lhs_proj_0 _ _
    | ⟨1, _⟩ => exact (lhs_proj_1 _ _).trans hk)
  have er : dot_S128x512_S2048x512_S128x2048_1_1_0_0_n_n.rhsIdx (ix2 e p) ((contrEquiv1 dot_S128x512_S2048x512_S128x2048_1_1_0_0_n_n 512 rfl rfl).symm k) = ix2 p k := funext fun a => Fin.ext (by
    match a with
    | ⟨0, _⟩ => exact rhs_proj_0 _ _
    | ⟨1, _⟩ => exact (rhs_proj_1 _ _).trans hk)
  rw [el, er]

/-- Second product, left operand, axis 0: the output's row. -/
theorem lhs_cross_0 (i : S64x2048.Idx) (q : dot_S64x128_S128x2048_S64x2048_1_0_0_1_n_n.contr.Idx) :
    (dot_S64x128_S128x2048_S64x2048_1_0_0_1_n_n.lhsIdx i q 0).val = (i 0).val := by
  unfold DotDims.lhsIdx
  rw [dif_neg (show ¬(0 : Fin S64x128.rank) ∈ dot_S64x128_S128x2048_S64x2048_1_0_0_1_n_n.lhsBatch by decide), dif_pos (show (0 : Fin S64x128.rank) ∈ dot_S64x128_S128x2048_S64x2048_1_0_0_1_n_n.lhsNonContracting by decide)]
  rfl
/-- Second product, left operand, axis 1: the contraction coordinate. -/
theorem lhs_cross_1 (i : S64x2048.Idx) (q : dot_S64x128_S128x2048_S64x2048_1_0_0_1_n_n.contr.Idx) :
    (dot_S64x128_S128x2048_S64x2048_1_0_0_1_n_n.lhsIdx i q 1).val = (q ⟨0, by decide⟩).val :=
  dot_S64x128_S128x2048_S64x2048_1_0_0_1_n_n.lhsIdx_val_of_single rfl i q
/-- Second product, right operand, axis 0: the contraction coordinate. -/
theorem rhs_cross_0 (i : S64x2048.Idx) (q : dot_S64x128_S128x2048_S64x2048_1_0_0_1_n_n.contr.Idx) :
    (dot_S64x128_S128x2048_S64x2048_1_0_0_1_n_n.rhsIdx i q 0).val = (q ⟨0, by decide⟩).val :=
  dot_S64x128_S128x2048_S64x2048_1_0_0_1_n_n.rhsIdx_val_of_single rfl i q
/-- Second product, right operand, axis 1: the output's column. -/
theorem rhs_cross_1 (i : S64x2048.Idx) (q : dot_S64x128_S128x2048_S64x2048_1_0_0_1_n_n.contr.Idx) :
    (dot_S64x128_S128x2048_S64x2048_1_0_0_1_n_n.rhsIdx i q 1).val = (i 1).val := by
  unfold DotDims.rhsIdx
  rw [dif_neg (show ¬(1 : Fin S128x2048.rank) ∈ dot_S64x128_S128x2048_S64x2048_1_0_0_1_n_n.rhsBatch by decide), dif_pos (show (1 : Fin S128x2048.rank) ∈ dot_S64x128_S128x2048_S64x2048_1_0_0_1_n_n.rhsNonContracting by decide)]
  rfl

/-- THE SECOND PRODUCT at `(q, p)`: `∑ e, c (q, e) · y (e, p)`. -/
theorem cross_apply (c : FVec Ideal S64x128 .f32) (y : FVec Ideal S128x2048 .f32) (q : Fin 64) (p : Fin 2048) :
    matmul dot_S64x128_S128x2048_S64x2048_1_0_0_1_n_n none c y (constant (F := Ideal) S64x2048 .f32 0x00000000#32) (ix2 q p)
      = ∑ e : Fin 128, c (ix2 q e) * y (ix2 e p) := by
  refine (Ideal.matmul_constant_zero_apply dot_S64x128_S128x2048_S64x2048_1_0_0_1_n_n none c y (ix2 q p)).trans ?_
  rw [← Equiv.sum_comp (contrEquiv1 dot_S64x128_S128x2048_S64x2048_1_0_0_1_n_n 128 rfl rfl).symm]
  refine Finset.sum_congr rfl fun e _ => ?_
  have he := contrEquiv1_symm_val dot_S64x128_S128x2048_S64x2048_1_0_0_1_n_n 128 rfl rfl e
  have el : dot_S64x128_S128x2048_S64x2048_1_0_0_1_n_n.lhsIdx (ix2 q p) ((contrEquiv1 dot_S64x128_S128x2048_S64x2048_1_0_0_1_n_n 128 rfl rfl).symm e) = ix2 q e := funext fun a => Fin.ext (by
    match a with
    | ⟨0, _⟩ => exact lhs_cross_0 _ _
    | ⟨1, _⟩ => exact (lhs_cross_1 _ _).trans he)
  have er : dot_S64x128_S128x2048_S64x2048_1_0_0_1_n_n.rhsIdx (ix2 q p) ((contrEquiv1 dot_S64x128_S128x2048_S64x2048_1_0_0_1_n_n 128 rfl rfl).symm e) = ix2 e p := funext fun a => Fin.ext (by
    match a with
    | ⟨0, _⟩ => exact (rhs_cross_0 _ _).trans he
    | ⟨1, _⟩ => exact rhs_cross_1 _ _)
  rw [el, er]

/-! ## One block of 2048 rows

The body does the same arithmetic on each of its two blocks of 2048 rows of `X`. It is named here stage by stage for ONE
block, each stage read at coordinates, so that the long argument is made once. -/

/-- The projected block: `W · xhᵀ`, a `128 × 2048` array whose column `p` is the projection of row `p` of the block. -/
def encV (w : FVec Ideal S128x512 .f32) (xh : FVec Ideal S2048x512 .f32) : FVec Ideal S128x2048 .f32 :=
  matmul dot_S128x512_S2048x512_S128x2048_1_1_0_0_n_n none w xh (constant S128x2048 .f32 0x00000000#32)

/-- The squared norms of the projected rows, as one row of 2048. -/
def xnormV (y : FVec Ideal S128x2048 .f32) : FVec Ideal S1x2048 .f32 :=
  shapeCast S1x2048 (multiReduction .add [0] S2048 (mulf y y) 0x00000000#32 reduces_S128x2048_S2048 (.inl rfl) rfl) shapeCasts_S2048_S1x2048

/-- The squared norms of the centroids, as one column of 64. -/
def cnormV (cc : FVec Ideal S64x128 .f32) : FVec Ideal S64x1 .f32 :=
  shapeCast S64x1 (multiReduction .add [1] S64 (mulf cc cc) 0x00000000#32 reduces_S64x128_S64 (.inl rfl) rfl) shapeCasts_S64_S64x1

/-- `‖C q‖² − 2 · ⟨C q, y p⟩` at `(q, p)`: the part of the squared distance that depends on the centroid. -/
def distV (cc : FVec Ideal S64x128 .f32) (y : FVec Ideal S128x2048 .f32) : FVec Ideal S64x2048 .f32 :=
  subf (broadcastTo S64x2048 (cnormV cc) broadcasts_S64x1_S64x2048)
    (mulf (broadcast S64x2048 (Scalar.ofBits .f32 0x40000000#32))
      (matmul dot_S64x128_S128x2048_S64x2048_1_0_0_1_n_n none cc y (constant S64x2048 .f32 0x00000000#32)))

/-- The minimum over the centroids, as one row of 2048. -/
def minV (d : FVec Ideal S64x2048 .f32) : FVec Ideal S1x2048 .f32 :=
  shapeCast S1x2048 (multiReduction .minimumf [0] S2048 d 0x7F800000#32 reduces_S64x2048_S2048 (.inl rfl) rfl) shapeCasts_S2048_S1x2048

/-- What the body computes from one block: `√(max (min_q (‖C q‖² − 2⟨C q, enc⟩) + ‖enc‖²) 0)`, one row of 2048. -/
def halfTerm (w : FVec Ideal S128x512 .f32) (cc : FVec Ideal S64x128 .f32) (xh : FVec Ideal S2048x512 .f32) : FVec Ideal S1x2048 .f32 :=
  sqrt (maximumf (addf (minV (distV cc (encV w xh))) (xnormV (encV w xh))) (broadcast S1x2048 (Scalar.ofBits .f32 0x00000000#32)))

/-- The squared norms at `(0, p)`: the sum of the squares down column `p`. -/
theorem xnormV_apply (y : FVec Ideal S128x2048 .f32) (p : Fin 2048) :
    xnormV y (ix2 (0 : Fin 1) p) = ∑ e : Fin 128, y (ix2 e p) * y (ix2 e p) := by
  unfold xnormV
  exact (shapeCast_a_1a_apply _ _ (0 : Fin 1) p).trans (colSum_apply (mulf y y) p)

/-- The centroids' squared norms at `(q, 0)`: the sum of the squares along row `q`. -/
theorem cnormV_apply (cc : FVec Ideal S64x128 .f32) (q : Fin 64) :
    cnormV cc (ix2 q (0 : Fin 1)) = ∑ e : Fin 128, cc (ix2 q e) * cc (ix2 q e) := by
  unfold cnormV
  exact (shapeCast_a_a1_apply _ _ q (0 : Fin 1)).trans (rowSum_apply (mulf cc cc) q)

/-- The centroid-dependent part at `(q, p)`. -/
theorem distV_apply (cc : FVec Ideal S64x128 .f32) (y : FVec Ideal S128x2048 .f32) (q : Fin 64) (p : Fin 2048) :
    distV cc y (ix2 q p)
      = (∑ e : Fin 128, cc (ix2 q e) * cc (ix2 q e)) - Cert.Spec.two * ∑ e : Fin 128, cc (ix2 q e) * y (ix2 e p) := by
  unfold distV
  exact congrArg₂ (fun a b : EReal => a - Cert.Spec.two * b)
    ((broadcastTo_a1_ab_apply _ _ q p).trans (cnormV_apply cc q)) (cross_apply cc y q p)

/-- The minimum at `(0, p)`: the fold of `min` from `+∞` down column `p`. -/
theorem minV_apply (d : FVec Ideal S64x2048 .f32) (p : Fin 2048) :
    minV d (ix2 (0 : Fin 1) p) = (Finset.univ : Finset (Fin 64)).fold min Cert.Spec.pinf (fun q => d (ix2 q p)) := by
  unfold minV
  exact (shapeCast_a_1a_apply _ _ (0 : Fin 1) p).trans (colMin_apply d p)

/-- ONE BLOCK AT ROW `p`: if row `p` of the block is row `r` of `X`, the block's value at `(0, p)` is the distance from
    row `r` to its nearest centroid, in the order of operations the specification's `nearestK` is written in. -/
theorem half (w : FVec Ideal S128x512 .f32) (cc : FVec Ideal S64x128 .f32) (xh : FVec Ideal S2048x512 .f32)
    (X : Fin 16384 → Fin 512 → EReal) (W : Fin 128 → Fin 512 → EReal) (C : Fin 64 → Fin 128 → EReal) (r : Fin 16384)
    (p : Fin 2048) (hw : ∀ e k, w (ix2 e k) = W e k) (hc : ∀ q e, cc (ix2 q e) = C q e)
    (hx : ∀ k : Fin 512, xh (ix2 p k) = X r k) :
    halfTerm w cc xh (ix2 (0 : Fin 1) p) = Cert.Spec.nearestK X W C r := by
  -- column `p` of the projected block is the projection of row `r`
  have henc : ∀ e : Fin 128, encV w xh (ix2 e p) = Cert.Spec.encK X W r e := fun e => by
    unfold encV Cert.Spec.encK
    exact (proj_apply w xh e p).trans (Finset.sum_congr rfl fun k _ => by rw [hw, hx])
  -- its squared norm
  have hxn : xnormV (encV w xh) (ix2 (0 : Fin 1) p) = Cert.Spec.xnormK X W r := by
    unfold Cert.Spec.xnormK
    exact (xnormV_apply _ p).trans (Finset.sum_congr rfl fun e _ => by rw [henc])
  -- the centroid-dependent part, centroid by centroid
  have hd : ∀ q : Fin 64, distV cc (encV w xh) (ix2 q p)
      = Cert.Spec.cnormK C q - Cert.Spec.two * Cert.Spec.crossK X W C q r := fun q => by
    have h1 : (∑ e : Fin 128, cc (ix2 q e) * cc (ix2 q e)) = Cert.Spec.cnormK C q := by
      unfold Cert.Spec.cnormK
      exact Finset.sum_congr rfl fun e _ => by rw [hc]
    have h2 : (∑ e : Fin 128, cc (ix2 q e) * encV w xh (ix2 e p)) = Cert.Spec.crossK X W C q r := by
      unfold Cert.Spec.crossK
      exact Finset.sum_congr rfl fun e _ => by rw [hc, henc]
    rw [distV_apply, h1, h2]
  -- the minimum over the centroids
  have hm : minV (distV cc (encV w xh)) (ix2 (0 : Fin 1) p)
      = (Finset.univ : Finset (Fin 64)).fold min Cert.Spec.pinf
          (fun q => Cert.Spec.cnormK C q - Cert.Spec.two * Cert.Spec.crossK X W C q r) :=
    (minV_apply _ p).trans (congrArg (Finset.fold min Cert.Spec.pinf · (Finset.univ : Finset (Fin 64))) (funext hd))
  -- the pointwise tail, read at `(0, p)` one operation at a time: root, clamp, sum, and the splat of the zero word
  unfold halfTerm
  rw [show ∀ (v : FVec Ideal S1x2048 .f32) (i : S1x2048.Idx), sqrt v i = Ideal.sqrt (v i) from fun _ _ => rfl,
    maximumf_apply, addf_apply, broadcast_apply, hm, hxn, Ideal.ofBits_def, Ideal.ofBits_zero_f32]
  rfl

/-! ## The two blocks side by side -/

/-- The body's whole arithmetic is the two blocks' values laid end to end along the lanes. -/
theorem pay2_eq (w : Vec Ideal S128x512 .f32) (cc : Vec Ideal S64x128 .f32) (xa xb : Vec Ideal S2048x512 .f32) :
    k0_pay2 (F := Ideal) w cc xa xb
      = concatenate S1x4096 1 [⟨S1x2048, halfTerm w cc xa⟩, ⟨S1x2048, halfTerm w cc xb⟩] concatenates_S1x2048_S1x2048_S1x4096_d1 :=
  rfl

/-- WHAT THE BODY STORES, in the first 2048 lanes: lane `j` holds the distance for the row of `X` that row `j` of the first
    block is. -/
theorem payload_lo (w : Vec Ideal S128x512 .f32) (cc : Vec Ideal S64x128 .f32) (xa xb : Vec Ideal S2048x512 .f32)
    (X : Fin 16384 → Fin 512 → EReal) (W : Fin 128 → Fin 512 → EReal) (C : Fin 64 → Fin 128 → EReal) (r : Fin 16384)
    (j : Fin 4096) (hj : j.val < 2048)
    (hw : ∀ e k, w (ix2 e k) = W e k) (hc : ∀ q e, cc (ix2 q e) = C q e)
    (hx : ∀ k : Fin 512, xa (ix2 (⟨j.val, hj⟩ : Fin 2048) k) = X r k) :
    k0_pay1 (F := Ideal) (k0_pay2 (F := Ideal) w cc xa xb) (ix3 (0 : Fin 1) (0 : Fin 1) j) = Cert.Spec.nearestK X W C r := by
  unfold k0_pay1
  refine (shapeCast_ab_1ab_apply _ _ (0 : Fin 1) (0 : Fin 1) j).trans ?_
  rw [pay2_eq]
  refine (concatenate_pair_apply_left (1 : Fin S1x4096.rank) (halfTerm w cc xa) (halfTerm w cc xb)
    concatenates_S1x2048_S1x2048_S1x4096_d1 (ix2 (0 : Fin 1) j) rfl (ix2 (0 : Fin 1) (⟨j.val, hj⟩ : Fin 2048))
    (fun b => by match b with | ⟨0, _⟩ => rfl | ⟨1, _⟩ => rfl)).trans ?_
  exact half w cc xa X W C r ⟨j.val, hj⟩ hw hc hx

/-- WHAT THE BODY STORES, in the last 2048 lanes: lane `j` holds the distance for the row of `X` that row `j − 2048` of the
    second block is. -/
theorem payload_hi (w : Vec Ideal S128x512 .f32) (cc : Vec Ideal S64x128 .f32) (xa xb : Vec Ideal S2048x512 .f32)
    (X : Fin 16384 → Fin 512 → EReal) (W : Fin 128 → Fin 512 → EReal) (C : Fin 64 → Fin 128 → EReal) (r : Fin 16384)
    (j : Fin 4096) (hj : 2048 ≤ j.val)
    (hw : ∀ e k, w (ix2 e k) = W e k) (hc : ∀ q e, cc (ix2 q e) = C q e)
    (hx : ∀ k : Fin 512, xb (ix2 (⟨j.val - 2048, by omega⟩ : Fin 2048) k) = X r k) :
    k0_pay1 (F := Ideal) (k0_pay2 (F := Ideal) w cc xa xb) (ix3 (0 : Fin 1) (0 : Fin 1) j) = Cert.Spec.nearestK X W C r := by
  unfold k0_pay1
  refine (shapeCast_ab_1ab_apply _ _ (0 : Fin 1) (0 : Fin 1) j).trans ?_
  rw [pay2_eq]
  refine (concatenate_pair_apply_right (1 : Fin S1x4096.rank) (halfTerm w cc xa) (halfTerm w cc xb)
    concatenates_S1x2048_S1x2048_S1x4096_d1 (ix2 (0 : Fin 1) j) rfl rfl
    (ix2 (0 : Fin 1) (⟨j.val - 2048, by omega⟩ : Fin 2048))
    (fun b hb => by
      match b with
      | ⟨0, _⟩ => rfl
      | ⟨1, _⟩ => exact absurd rfl hb)
    (by show (j.val - 2048) + 2048 = j.val; omega)).trans ?_
  exact half w cc xb X W C r ⟨j.val - 2048, by omega⟩ hw hc hx

end Cert.KernelPayload

end
-- ==== Proof.IdealValue.lean ====
/-
  What the fused program leaves in its flat result, at the ideal values: entry `i` is `Spec.nearestK` at row `i`.

  Point `t` of the grid writes back the 1 × 1 × 4096 block of row `t` of the 4 × 1 × 4096 array. Lane `j` of that block
  is the body's payload at lane `j`, which is `nearestK` at the row of `x` the lane was computed from: the first window's
  block at `t` is rows [4096 t, 4096 t + 2048) of `x` and the second's rows [4096 t + 2048, 4096 t + 4096), so lane `j` of
  either half sits at row `4096 t + j`; the matrix and the centroids are staged whole. The four blocks tile the array, so
  the array ends holding `nearestK (4096 t + j)` at `(t, 0, j)`; the reshape to 16384 entries reads it in row-major
  order, entry `i` at `(i / 4096, 0, i % 4096)`, which is `nearestK i`.
-/
import proofs.«169629_g25297357373548_cont_9to1_2195_10_alg».proof.Proof.IdealRun
import proofs.«169629_g25297357373548_cont_9to1_2195_10_alg».proof.Proof.KernelPayload
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The arguments by coordinates -/

abbrev Xof (c : Dev nD) : Fin 16384 → Fin 512 → EReal := fun r k => (m ((c : Thread nD τ).loc main_arg0) : S16384x512.Idx → EReal) (ix2 r k)
abbrev Wof (c : Dev nD) : Fin 128 → Fin 512 → EReal := fun e k => (m ((c : Thread nD τ).loc main_arg1) : S128x512.Idx → EReal) (ix2 e k)
abbrev Cof (c : Dev nD) : Fin 64 → Fin 128 → EReal := fun q e => (m ((c : Thread nD τ).loc main_arg2) : S64x128.Idx → EReal) (ix2 q e)

/-! ## The grid and the index maps -/

theorem t_lt (t : Fin cfg0.N) : t.val < 4 := by
  have h := t.isLt
  have e : cfg0.N = 4 := N_0
  omega

/-- The row of `x` that lane `j` of point `t` is computed from. -/
def rowOf (t : Fin cfg0.N) (j : Fin 4096) : Fin 16384 := ⟨4096 * t.val + j.val, by have := t_lt t; have := j.isLt; omega⟩

/-- The printed index maps, decided over the grid. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The input blocks at coordinates -/

/-- Row `j` of the first window's block at `t` is row `4096 t + j` of `x`. -/
theorem xa_read (c : Dev nD) (t : Fin cfg0.N) (j : Fin 4096) (hj : j.val < 2048) (k : Fin 512) :
    (iblk m c 0 t : S2048x512.Idx → EReal) (ix2 (⟨j.val, hj⟩ : Fin 2048) k) = Xof m c (rowOf t j) k := by
  show (V m c main_arg0 : S16384x512.Idx → EReal) (((cfg0.win 0).blk t).view.emb (ix2 (⟨j.val, hj⟩ : Fin 2048) k)) = _
  refine congrArg _ ?_
  funext a; apply Fin.ext
  obtain ⟨e0, e1, -⟩ := idx_facts t
  match a with
  | ⟨0, _⟩ => show win0_0.index t (0 : Fin 2) * 2048 + 1 * j.val = 4096 * t.val + j.val; omega
  | ⟨1, _⟩ => show win0_0.index t (1 : Fin 2) * 512 + 1 * k.val = k.val; omega

/-- Row `j − 2048` of the second window's block at `t` is row `4096 t + j` of `x`. -/
theorem xb_read (c : Dev nD) (t : Fin cfg0.N) (j : Fin 4096) (hj : 2048 ≤ j.val) (k : Fin 512) :
    (iblk m c 1 t : S2048x512.Idx → EReal) (ix2 (⟨j.val - 2048, by omega⟩ : Fin 2048) k) = Xof m c (rowOf t j) k := by
  show (V m c main_arg0 : S16384x512.Idx → EReal) (((cfg0.win 1).blk t).view.emb (ix2 (⟨j.val - 2048, by omega⟩ : Fin 2048) k)) = _
  refine congrArg _ ?_
  funext a; apply Fin.ext
  obtain ⟨-, -, e2, e3, -⟩ := idx_facts t
  match a with
  | ⟨0, _⟩ => show win0_1.index t (0 : Fin 2) * 2048 + 1 * (j.val - 2048) = 4096 * t.val + j.val; omega
  | ⟨1, _⟩ => show win0_1.index t (1 : Fin 2) * 512 + 1 * k.val = k.val; omega

/-- The matrix's window is the matrix. -/
theorem w_read (c : Dev nD) (t : Fin cfg0.N) (e : Fin 128) (k : Fin 512) :
    (iblk m c 2 t : S128x512.Idx → EReal) (ix2 e k) = Wof m c e k := by
  show (V m c main_arg1 : S128x512.Idx → EReal) (((cfg0.win 2).blk t).view.emb (ix2 e k)) = _
  refine congrArg _ ?_
  funext a; apply Fin.ext
  obtain ⟨-, -, -, -, e4, e5, -⟩ := idx_facts t
  match a with
  | ⟨0, _⟩ => show win0_2.index t (0 : Fin 2) * 128 + 1 * e.val = e.val; omega
  | ⟨1, _⟩ => show win0_2.index t (1 : Fin 2) * 512 + 1 * k.val = k.val; omega

/-- The centroids' window is the centroids. -/
theorem c_read (c : Dev nD) (t : Fin cfg0.N) (q : Fin 64) (e : Fin 128) :
    (iblk m c 3 t : S64x128.Idx → EReal) (ix2 q e) = Cof m c q e := by
  show (V m c main_arg2 : S64x128.Idx → EReal) (((cfg0.win 3).blk t).view.emb (ix2 q e)) = _
  refine congrArg _ ?_
  funext a; apply Fin.ext
  obtain ⟨-, -, -, -, -, -, e6, e7, -⟩ := idx_facts t
  match a with
  | ⟨0, _⟩ => show win0_3.index t (0 : Fin 2) * 64 + 1 * q.val = q.val; omega
  | ⟨1, _⟩ => show win0_3.index t (1 : Fin 2) * 128 + 1 * e.val = e.val; omega

/-! ## From blocks to the array -/

theorem hz2 : (![0, 0] : Fin 2 → Nat) = fun _ => 0 := funext fun a => by fin_cases a <;> rfl
theorem hz3 : (![0, 0, 0] : Fin 3 → Nat) = fun _ => 0 := funext fun a => by fin_cases a <;> rfl

/-- What the region's result array ends holding: at `(t, 0, j)`, `nearestK` at row `4096 t + j`. -/
def Gout (c : Dev nD) : S4x1x4096.Idx → EReal := fun i =>
  Spec.nearestK (Xof m c) (Wof m c) (Cof m c) ⟨(i 0).val * 4096 + (i 2).val, by
    have h0 : (i 0).val < 4 := (i 0).isLt
    have h2 : (i 2).val < 4096 := (i 2).isLt
    omega⟩

/-- WHAT POINT `t` WRITES BACK is block `t` of `Gout`. -/
theorem flushed_eq (c : Dev nD) (t : Fin cfg0.N) :
    (dats m 0 c).flushed 4 t = ((cfg0.win 4).blk t).view.read (Elt Ideal) (Gout m c) := by
  show (cfg0.win 4).cut (grid0.coords t) ((dats m 0 c).after 4 t) = _
  rw [after0_4]
  unfold outBlk
  rw [View.canon_unit_zero hz3]
  simp only [View.ld_unit_zero (S := S2048x512) hz2, View.ld_unit_zero (S := S128x512) hz2, View.ld_unit_zero (S := S64x128) hz2]
  funext j
  obtain ⟨a, b, p, rfl⟩ : ∃ (a : Fin 1) (b : Fin 1) (p : Fin 4096), j = ix3 a b p := ⟨j 0, j 1, j 2, eq_ix3 j⟩
  obtain rfl : a = 0 := Subsingleton.elim _ _
  obtain rfl : b = 0 := Subsingleton.elim _ _
  have hG : ((cfg0.win 4).blk t).view.read (Elt Ideal) (Gout m c) (ix3 (0 : Fin 1) (0 : Fin 1) p)
      = Spec.nearestK (Xof m c) (Wof m c) (Cof m c) (rowOf t p) := by
    show Gout m c (((cfg0.win 4).blk t).view.emb (ix3 (0 : Fin 1) (0 : Fin 1) p)) = _
    unfold Gout
    refine congrArg _ (Fin.ext ?_)
    obtain ⟨-, -, -, -, -, -, -, -, e8, e9, e10⟩ := idx_facts t
    show (win0_4.index t (0 : Fin 3) * 1 + 1 * 0) * 4096 + (win0_4.index t (2 : Fin 3) * 4096 + 1 * p.val) = 4096 * t.val + p.val
    omega
  rw [hG]
  by_cases hp : p.val < 2048
  · exact Cert.KernelPayload.payload_lo _ _ _ _ (Xof m c) (Wof m c) (Cof m c) (rowOf t p) p hp
      (fun e k => w_read m c t e k) (fun q e => c_read m c t q e) (fun k => xa_read m c t p hp k)
  · exact Cert.KernelPayload.payload_hi _ _ _ _ (Xof m c) (Wof m c) (Cof m c) (rowOf t p) p (Nat.le_of_not_lt hp)
      (fun e k => w_read m c t e k) (fun q e => c_read m c t q e) (fun k => xb_read m c t p (Nat.le_of_not_lt hp) k)

/-- An index of the array is in point `t`'s block iff each coordinate is in the block's range on its axis. -/
theorem mem_blk (t : Fin cfg0.N) (i : S4x1x4096.Idx) :
    i ∈ ((cfg0.win 4).blk t).view.set ↔ ∀ a : Fin 3, win0_4.index t a * S1x1x4096.size a ≤ (i a).val ∧ (i a).val < win0_4.index t a * S1x1x4096.size a + S1x1x4096.size a := by
  show i ∈ ((View.whole main_call0_v0).slice (win0_4.rect t)).set ↔ _
  rw [View.set_slice_whole, Rect.mem_set_unit]
  exact Iff.rfl

/-- The four blocks tile the array: index `(t, 0, j)` is in point `t`'s block. -/
theorem cover (i : S4x1x4096.Idx) : ∃ t : Fin cfg0.N, (cfg0.win 4).flush t = true ∧ i ∈ ((cfg0.win 4).blk t).view.set := by
  have h0 : (i 0).val < 4 := (i 0).isLt
  have h1 : (i 1).val < 1 := (i 1).isLt
  have h2 : (i 2).val < 4096 := (i 2).isLt
  have hN : cfg0.N = 4 := N_0
  obtain ⟨t, ht⟩ : ∃ t : Fin cfg0.N, t.val = (i 0).val := ⟨⟨(i 0).val, by omega⟩, rfl⟩
  refine ⟨t, flush0_4 t, ?_⟩
  rw [mem_blk]
  obtain ⟨-, -, -, -, -, -, -, -, e8, e9, e10⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 4096 ≤ (i 2).val ∧ (i 2).val < win0_4.index t (2 : Fin 3) * 4096 + 4096; omega

/-- THE REGION'S RESULT ARRAY after the run is `Gout`. -/
theorem out_eq (c : Dev nD) : outArr m c = Gout m c := by
  unfold outArr
  exact (dats m 0 c).arrAt_eq_of_cover 4 (Gout m c) (fun t _ => flushed_eq m c t) (cover)

/-! ## The flat result -/

/-- THE FLAT RESULT: entry `i` is `nearestK` at row `i`. -/
theorem res_eq (c : Dev nD) :
    resArr m c = fun i : S16384.Idx => Spec.nearestK (Xof m c) (Wof m c) (Cof m c) (i 0) := by
  have e : resArr m c = fun i : S16384.Idx => shapeCast S16384 (outArr m c : S4x1x4096.Idx → EReal) shapeCasts_S4x1x4096_S16384 i := by
    unfold resArr
    dsimp only [hostOps1]
    rw [StableHlo.after_cons, StableHlo.after_nil]
    unfold StableHlo.TRef.reshape
    rw [StableHlo.reshape_result]
    rw [show Vexit m c (Proc.devRef .tc main_call0_v0) = outArr m c from mExit_out m c]
    rfl
  rw [e, out_eq]
  funext i
  obtain ⟨r, rfl⟩ : ∃ r : Fin 16384, i = ix1 r := ⟨i 0, eq_ix1 i⟩
  have hr := r.isLt
  rw [shapeCast_apply (Gout m c) shapeCasts_S4x1x4096_S16384 (ix1 r) (ix3 (⟨r.val / 4096, by omega⟩ : Fin 4) (0 : Fin 1) (⟨r.val % 4096, Nat.mod_lt _ (by decide)⟩ : Fin 4096)) (by
    rw [Shape.rowMajor_val_three, Shape.rowMajor_val_one]
    show ((r.val / 4096) * 1 + 0) * 4096 + r.val % 4096 = r.val
    omega)]
  unfold Gout
  refine congrArg _ (Fin.ext ?_)
  show (r.val / 4096) * 4096 + r.val % 4096 = r.val
  omega

end Cert.KernelIdeal.Hand

end
-- ==== Proof.RefValue.lean ====
import proofs.«169629_g25297357373548_cont_9to1_2195_10_alg».proof.Proof.Gen.ReferenceIdeal.Run
import proofs.«169629_g25297357373548_cont_9to1_2195_10_alg».proof.Proof.Gen.ReferenceIdeal.Read
import proofs.«169629_g25297357373548_cont_9to1_2195_10_alg».proof.Proof.Spec
import Idealize.ShloMosaic.PureOps.Reduce
import Idealize.ShloMosaic.PureOps.Ideal
import Idealize.ShloMosaic.PureOps.Ideal.Laws
import Idealize.ShloMosaic.Lib.ValueIdx

/-
  The plain program's result, read at a row, is the specification's `nearestR` of the three argument arrays read as
  functions of their coordinates.

  The program forms, for every row `r` and centroid `q`, the number `√(max ((‖enc r‖² + ‖C q‖²) − 2·⟨enc r, C q⟩) 0)`
  and then takes the minimum over `q` starting from `+∞`. Each stage below reads one of these quantities at explicit
  coordinates: the projection `enc r e`, the two squared norms, the inner product, the clamped root, and last the
  minimum over the 64 centroids.
-/

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo
open ValueIdx

/-- Dropping axis 1 of a 16384 × 64 array leaves the 16384 rows. -/
theorem reduces_rows : S16384x64.Reduces [1] S16384 := by decide

/-- Row `r` with centroid coordinate `q` put back on the dropped axis is the pair `(r, q)`. -/
theorem lift_rows (r : Fin 16384) (q : Fin 64) : reduces_rows.lift (ix1 r) q = ix2 r q :=
  funext fun c => Fin.ext (by match c with | ⟨0, _⟩ => rfl | ⟨1, _⟩ => rfl)

/-- The minimum over axis 1 of any 16384 × 64 array, at row `r`, is the fold of `min` over the 64 entries of that row,
    started from the initial value's one element. -/
theorem min_rows (y : (⟨S16384x64, .f32⟩ : BufTy).Contents (Elt Ideal)) (c : (⟨S_, .f32⟩ : BufTy).Contents (Elt Ideal)) (r : Fin 16384) :
    Host.reduce (FloatOps.minimumf (F := Ideal) (φ := .f32)) y c reducesTo_S16384x64_S16384_d1 h_S_ (ix1 r)
      = (Finset.univ : Finset (Fin 64)).fold min (c (Shape.Idx.first h_S_)) (fun q => y (ix2 r q)) := by
  rw [Host.reduce_eq_fold_single (FloatOps.minimumf (F := Ideal) (φ := .f32)) y c reducesTo_S16384x64_S16384_d1 reduces_rows h_S_ (ix1 r)]
  show (Finset.univ : Finset (Fin 64)).fold min (c (Shape.Idx.first h_S_)) (fun q => y (reduces_rows.lift (ix1 r) q)) = _
  exact congrArg (fun f => (Finset.univ : Finset (Fin 64)).fold min (c (Shape.Idx.first h_S_)) f)
    (funext fun q => congrArg y (lift_rows r q))

/-! ## The three arrays as functions of their coordinates -/

/-- The rows: entry `k` of row `r`. -/
abbrev rowsFn (x0 : (⟨S16384x512, .f32⟩ : BufTy).Contents (Elt Ideal)) : Fin 16384 → Fin 512 → EReal := fun r k => x0 (ix2 r k)
/-- The projection: entry `k` of its row `e`. -/
abbrev projFn (x1 : (⟨S128x512, .f32⟩ : BufTy).Contents (Elt Ideal)) : Fin 128 → Fin 512 → EReal := fun e k => x1 (ix2 e k)
/-- The centroids: coordinate `e` of centroid `q`. -/
abbrev centFn (x2 : (⟨S64x128, .f32⟩ : BufTy).Contents (Elt Ideal)) : Fin 64 → Fin 128 → EReal := fun q e => x2 (ix2 q e)

variable (x0 : (⟨S16384x512, .f32⟩ : BufTy).Contents (Elt Ideal)) (x1 : (⟨S128x512, .f32⟩ : BufTy).Contents (Elt Ideal))
  (x2 : (⟨S64x128, .f32⟩ : BufTy).Contents (Elt Ideal))

/-! ## One quantity at a time -/

/-- Coordinate `e` of the projected row `r`: the product of the rows with the transposed projection, at `(r, e)`, is
    `∑ k, X r k · W e k`. -/
theorem enc_read (r : Fin 16384) (e : Fin 128) :
    val_main_v1 (F := Ideal) x0 x1 (ix2 r e) = Spec.encR (rowsFn x0) (projFn x1) r e := by
  rw [val_main_v1_apply]
  unfold Spec.encR
  refine Finset.sum_congr rfl fun k _ => ?_
  have e1 : lidx_main_v1 (ix2 r e) k = ix2 r k :=
    funext fun a => Fin.ext (by match a with | ⟨0, _⟩ => rfl | ⟨1, _⟩ => rfl)
  have e2 : idx_main_v0 (ridx_main_v1 (ix2 r e) k) = ix2 e k :=
    funext fun a => Fin.ext (by match a with | ⟨0, _⟩ => rfl | ⟨1, _⟩ => rfl)
  rw [val_main_v0_apply, e1, e2]

/-- The squared norm of the projected row `r`: the squares of its 128 coordinates summed from zero. -/
theorem xnorm_read (r : Fin 16384) :
    val_main_v3 (F := Ideal) x0 x1 (ix1 r) = Spec.xnormR (rowsFn x0) (projFn x1) r := by
  rw [val_main_v3_apply, val_main_cst_apply, Ideal.ofBits_def, Ideal.ofBits_zero_f32]
  unfold Spec.xnormR
  refine congrArg (0 + ·) (Finset.sum_congr rfl fun k _ => ?_)
  have e1 : idx_main_v3 (ix1 r) k = ix2 r k :=
    funext fun a => Fin.ext (by match a with | ⟨0, _⟩ => rfl | ⟨1, _⟩ => rfl)
  rw [e1, val_main_v2_apply, Ideal.mulf_def, enc_read]

/-- The squared norm of centroid `q`: the squares of its 128 coordinates summed from zero. -/
theorem cnorm_read (q : Fin 64) :
    val_main_v6 (F := Ideal) x2 (ix1 q) = Spec.cnormR (centFn x2) q := by
  rw [val_main_v6_apply, val_main_cst_0_apply, Ideal.ofBits_def, Ideal.ofBits_zero_f32]
  unfold Spec.cnormR
  refine congrArg (0 + ·) (Finset.sum_congr rfl fun k _ => ?_)
  have e1 : idx_main_v6 (ix1 q) k = ix2 q k :=
    funext fun a => Fin.ext (by match a with | ⟨0, _⟩ => rfl | ⟨1, _⟩ => rfl)
  rw [e1, val_main_v5_apply, Ideal.mulf_def]

/-- The inner product of the projected row `r` with centroid `q`: the product of the projected rows with the transposed
    centroids, at `(r, q)`. -/
theorem cross_read (r : Fin 16384) (q : Fin 64) :
    val_main_v12 (F := Ideal) x0 x1 x2 (ix2 r q) = Spec.crossR (rowsFn x0) (projFn x1) (centFn x2) r q := by
  rw [val_main_v12_apply]
  unfold Spec.crossR
  refine Finset.sum_congr rfl fun k _ => ?_
  have e1 : lidx_main_v12 (ix2 r q) k = ix2 r k :=
    funext fun a => Fin.ext (by match a with | ⟨0, _⟩ => rfl | ⟨1, _⟩ => rfl)
  have e2 : idx_main_v11 (ridx_main_v12 (ix2 r q) k) = ix2 q k :=
    funext fun a => Fin.ext (by match a with | ⟨0, _⟩ => rfl | ⟨1, _⟩ => rfl)
  rw [val_main_v11_apply, e1, e2, enc_read]

/-- The clamped root at `(r, q)`: the row's norm is spread along `q`, the centroid's along `r`, twice the inner product is
    taken away, the difference is clamped at zero and rooted. -/
theorem dist_read (r : Fin 16384) (q : Fin 64) :
    val_main_v18 (F := Ideal) x0 x1 x2 (ix2 r q)
      = Ideal.sqrt (max ((Spec.xnormR (rowsFn x0) (projFn x1) r + Spec.cnormR (centFn x2) q)
          - Spec.two * Spec.crossR (rowsFn x0) (projFn x1) (centFn x2) r q) 0) := by
  have e8 : idx_main_v4 (idx_main_v8 (ix2 r q)) = ix1 r :=
    funext fun a => Fin.ext (by match a with | ⟨0, _⟩ => rfl)
  have e9 : idx_main_v7 (idx_main_v9 (ix2 r q)) = ix1 q :=
    funext fun a => Fin.ext (by match a with | ⟨0, _⟩ => rfl)
  rw [val_main_v18_apply, val_main_v17_apply, val_main_v15_apply, val_main_v10_apply, val_main_v14_apply,
    val_main_v13_apply, val_main_v16_apply, val_main_cst_1_apply, val_main_cst_2_apply, val_main_v8_apply,
    val_main_v4_apply, val_main_v9_apply, val_main_v7_apply, e8, e9, xnorm_read, cnorm_read, cross_read]
  simp only [Ideal.hostUnary_sqrt_def, Ideal.maximumf_def, Ideal.subf_def, Ideal.addf_def, Ideal.mulf_def,
    Ideal.ofBits_def, Ideal.ofBits_zero_f32]

/-! ## The result -/

/-- The plain program's result at row `i` is the specification's nearest-centroid distance of that row. -/
theorem ref_eq (x0 : (⟨S16384x512, .f32⟩ : BufTy).Contents (Elt Ideal)) (x1 : (⟨S128x512, .f32⟩ : BufTy).Contents (Elt Ideal))
    (x2 : (⟨S64x128, .f32⟩ : BufTy).Contents (Elt Ideal)) (i : S16384.Idx) :
    Cert.ReferenceIdeal.Read.val_main_v19 (F := Ideal) x0 x1 x2 i
      = Cert.Spec.nearestR (fun r k => x0 (ValueIdx.ix2 r k)) (fun e k => x1 (ValueIdx.ix2 e k))
          (fun q e => x2 (ValueIdx.ix2 q e)) (i 0) := by
  obtain ⟨r, rfl⟩ : ∃ r : Fin 16384, i = ix1 r := ⟨i 0, eq_ix1 i⟩
  unfold val_main_v19
  rw [min_rows, val_main_cst_3_apply, Ideal.ofBits_def]
  unfold Spec.nearestR
  exact congrArg (fun f => (Finset.univ : Finset (Fin 64)).fold min Spec.pinf f)
    (funext fun q => dist_read x0 x1 x2 r q)

end Cert.RefValue

end
-- ==== Proof.Law.lean ====
/-
  The law that the two spellings of the nearest-centroid distance agree.

  The two projections, the two row norms, the two centroid norms and the two inner products are equal term by term
  (commutativity of the product inside each sum, and 0 + s = s). What is left is an exchange: with
  f q := ‖C q‖² − 2⟨C q, enc r⟩ and b := ‖enc r‖², one side is √(max ((min_q f q) + b) 0) and the other is
  min_q √(max ((b + ‖C q‖²) − 2⟨C q, enc r⟩) 0). On the extended reals a − c is a + (−c) and addition is commutative
  and associative, so (b + n) − t = (n − t) + b with no finiteness assumption. Both t ↦ t + b and t ↦ √(max t 0) are
  monotone, and a monotone map commutes with the minimum of a finite nonempty family; the starting value +∞ of the
  fold plays no part because the family is nonempty.
-/
import Mathlib.Data.Finset.Fold
import Mathlib.Data.EReal.Operations
import Mathlib.Analysis.Real.Sqrt
import Mathlib.Data.Finset.Insert
import proofs.«169629_g25297357373548_cont_9to1_2195_10_alg».proof.Proof.Spec

noncomputable section

namespace Cert.Spec

open Idealize.ShloMosaic

/-- The starting value of the minimum is the top element of the extended reals. -/
theorem pinf_eq_top : pinf = (⊤ : EReal) := by
  simp [pinf, Ideal.ofBits, Ideal.ieee]

/-- A monotone map commutes with the minimum of a nonempty finite family folded from +∞: the image of the least
    value is the least image. The starting value is absorbed by the first element, so nothing is asked of the
    image of +∞. -/
theorem map_fold_min_top {ι : Type} (g : EReal → EReal) (hg : Monotone g) (f : ι → EReal)
    (s : Finset ι) (hs : s.Nonempty) :
    g (s.fold min ⊤ f) = s.fold min ⊤ (fun i => g (f i)) := by
  induction hs using Finset.Nonempty.cons_induction with
  | singleton a => simp [Finset.fold_singleton]
  | cons a s ha hs ih => rw [Finset.fold_cons, Finset.fold_cons, hg.map_min, ih]

/-- The root is monotone on the extended reals: below zero it is −∞, on the nonnegative reals it is the real root,
    and +∞ goes to +∞. -/
theorem sqrt_mono : Monotone Ideal.sqrt := by
  intro a b hab
  induction a using EReal.rec with
  | bot => simp
  | top =>
    have hb : b = ⊤ := top_le_iff.mp hab
    subst hb
    exact le_rfl
  | coe x =>
    induction b using EReal.rec with
    | bot => simp at hab
    | top => simp
    | coe y =>
      have hxy : x ≤ y := EReal.coe_le_coe_iff.mp hab
      simp only [Ideal.sqrt_coe]
      split_ifs with h1 h2
      · exact le_rfl
      · exact bot_le
      · exfalso; linarith
      · exact EReal.coe_le_coe_iff.mpr (Real.sqrt_le_sqrt hxy)

variable (X : Fin 16384 → Fin 512 → EReal) (W : Fin 128 → Fin 512 → EReal) (C : Fin 64 → Fin 128 → EReal)

/-- The two projections agree: each product inside the sum commutes. -/
theorem encR_eq_encK (r : Fin 16384) (e : Fin 128) : encR X W r e = encK X W r e :=
  Finset.sum_congr rfl (fun k _ => mul_comm _ _)

/-- The two row norms agree: the same sum, once started from zero. -/
theorem xnormR_eq_xnormK (r : Fin 16384) : xnormR X W r = xnormK X W r := by
  unfold xnormR xnormK
  rw [zero_add]
  exact Finset.sum_congr rfl (fun e _ => by rw [encR_eq_encK])

/-- The two centroid norms agree: the same sum, once started from zero. -/
theorem cnormR_eq_cnormK (q : Fin 64) : cnormR C q = cnormK C q := by
  unfold cnormR cnormK
  rw [zero_add]

/-- The two inner products agree: each product inside the sum commutes. -/
theorem crossR_eq_crossK (r : Fin 16384) (q : Fin 64) : crossR X W C r q = crossK X W C q r := by
  unfold crossR crossK
  exact Finset.sum_congr rfl (fun e _ => by rw [encR_eq_encK, mul_comm])

/-- Adding the row norm last or first gives the same number: subtraction is addition of the negative, and addition
    on the extended reals is commutative and associative. -/
theorem add_sub_swap (b n t : EReal) : (b + n) - t = (n - t) + b := by
  rw [sub_eq_add_neg, sub_eq_add_neg, add_comm b n, add_right_comm]

/-- The two spellings of the distance to the nearest centroid are equal. -/
theorem nearestK_eq_nearestR (X : Fin 16384 → Fin 512 → EReal) (W : Fin 128 → Fin 512 → EReal)
    (C : Fin 64 → Fin 128 → EReal) (r : Fin 16384) :
    nearestK X W C r = nearestR X W C r := by
  have hg : Monotone (fun t : EReal => Ideal.sqrt (max (t + xnormK X W r) 0)) := by
    intro s t hst
    exact sqrt_mono (max_le_max (add_le_add hst le_rfl) le_rfl)
  unfold nearestK nearestR
  rw [pinf_eq_top]
  rw [map_fold_min_top (fun t : EReal => Ideal.sqrt (max (t + xnormK X W r) 0)) hg _ Finset.univ
    Finset.univ_nonempty]
  refine Finset.fold_congr (fun q _ => ?_)
  rw [xnormR_eq_xnormK, cnormR_eq_cnormK, crossR_eq_crossK, add_sub_swap]

end Cert.Spec

end
-- ==== Proof.lean ====
/-
  The certificate of the fused projection / nearest-centroid kernel against its plain reference.

  Both programs take `x` (16384 × 512), a projection matrix `W` (128 × 512) and centroids `C` (64 × 128), and return for
  every row `r` the Euclidean distance from the projected row `W xᵣ` to its nearest centroid, through the expansion
  `‖enc‖² + ‖C q‖² − 2⟨C q, enc⟩` of the squared distance clamped at zero. The reference forms all 64 clamped roots and
  takes their minimum; the kernel takes the minimum of `‖C q‖² − 2⟨C q, enc⟩` first, adds `‖enc‖²` once, and clamps and
  roots that one number — the same extended real, because adding a fixed number and `t ↦ √(max t 0)` are monotone and a
  monotone map commutes with a finite nonempty minimum (`Law.lean`; no finiteness of the inputs is used).

  The kernel is one pipelined region on a grid of four points followed by a reshape. Two of its windows stage the same
  array `x` (the two halves of each point's 4096 rows), so its frame is proved here against the library's launch of a
  list of segments, the core's hold on `x` dealt between the two windows at entry and joined again at exit
  (`IdealBody` / `IdealData` / `IdealRun`, generic in the float instance; `WordBody` / `WordData` / `WordRun` are the same
  text for the word-level program). `IdealValue` reads the kernel's flat result at the ideal values as
  `Spec.nearestK` row by row (over `KernelPayload`, the body's arithmetic at a lane); `RefValue` reads the reference's
  result as `Spec.nearestR` over the generated run of its host operations.
-/
import proofs.«169629_g25297357373548_cont_9to1_2195_10_alg».proof.Defs
import proofs.«169629_g25297357373548_cont_9to1_2195_10_alg».proof.Proof.Gen.Kernel
import proofs.«169629_g25297357373548_cont_9to1_2195_10_alg».proof.Proof.Gen.KernelIdeal
import proofs.«169629_g25297357373548_cont_9to1_2195_10_alg».proof.Proof.Gen.ReferenceIdeal
import proofs.«169629_g25297357373548_cont_9to1_2195_10_alg».proof.Proof.Gen.Pre_finite_inputs
import proofs.«169629_g25297357373548_cont_9to1_2195_10_alg».proof.Proof.Gen.ReferenceIdeal.Run
import proofs.«169629_g25297357373548_cont_9to1_2195_10_alg».proof.Proof.Gen.ReferenceIdeal.Read
import proofs.«169629_g25297357373548_cont_9to1_2195_10_alg».proof.Proof.WordRun
import proofs.«169629_g25297357373548_cont_9to1_2195_10_alg».proof.Proof.IdealValue
import proofs.«169629_g25297357373548_cont_9to1_2195_10_alg».proof.Proof.RefValue
import proofs.«169629_g25297357373548_cont_9to1_2195_10_alg».proof.Proof.Law
import Idealize.ShloMosaic.Adequacy
import Idealize.ShloMosaic.Init

noncomputable section

namespace Cert.Proof

open Idealize.ShloMosaic Idealize.SL.Sem

/-- The word-level kernel runs to the end and leaves its three arguments as launched. -/
theorem frame_k : Cert.frame_Kernel := fun m ρ _ =>
  (θ_run Cert.Kernel.defs _ _).mono (fun _ h c => (h c).2) (Cert.Kernel.Hand.run_main (F := Bits) m ρ)

/-- So does the kernel read at the ideal values. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal values the kernel's flat result is `nearestK` row by row and the reference's is `nearestR` row by row,
    of arguments that agree: one number per row. -/
theorem algebraic : Cert.algebraic_KernelIdeal_ReferenceIdeal := by
  intro m ρ m' ρ' _ hagree
  refine ⟨fun c => Cert.KernelIdeal.Hand.resArr m c, ?_, ?_⟩
  · exact (θ_run Cert.KernelIdeal.defs _ _).mono (fun _ h c => h c) (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, (hagree c).1, (hagree c).2.1, (hagree c).2.2]
    show _ = Cert.KernelIdeal.Hand.resArr m c
    rw [Cert.KernelIdeal.Hand.res_eq]
    funext i
    rw [Cert.RefValue.ref_eq]
    exact (Cert.Spec.nearestK_eq_nearestR _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
